-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x96 : Shape := ⟨2, ![128, 96]⟩
abbrev S96 : Shape := ⟨1, ![96]⟩
abbrev S96x128 : Shape := ⟨2, ![96, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S96x128 .f32) (main_arg9 : FVec F S96x128 .f32) (main_arg10 : FVec F S96x128 .f32) (main_arg11 : FVec F S128 .f32) (main_v33 : IVec S_ 1) : IVec S_ 1 :=
  let main_v34 : FVec F S96x128 .f32 := Host.absf main_arg8
  let main_cst_12 : FVec F S_ .f32 := constant S_ .f32 0x7F800000#32
  let main_v35 : FVec F S96x128 .f32 := broadcastInDim S96x128 ![] bcast_S_S96x128 main_cst_12
  let main_v36 : IVec S96x128 1 := cmpf .olt main_v34 main_v35
  let main_c_13 : IVec S_ 1 := constantI S_ 1 1#1
  let main_v37 : IVec S_ 1 := (fun x v => Host.reduce IntOp.andi x v reducesTo_S96x128_S_d0_1 h_S_) main_v36 main_c_13
  let main_v38 : IVec S_ 1 := andi main_v33 main_v37
  let main_v39 : FVec F S96x128 .f32 := Host.absf main_arg9
  let main_cst_14 : FVec F S_ .f32 := constant S_ .f32 0x7F800000#32
  let main_v40 : FVec F S96x128 .f32 := broadcastInDim S96x128 ![] bcast_S_S96x128 main_cst_14
  let main_v41 : IVec S96x128 1 := cmpf .olt main_v39 main_v40
  let main_c_15 : IVec S_ 1 := constantI S_ 1 1#1
  let main_v42 : IVec S_ 1 := (fun x v => Host.reduce IntOp.andi x v reducesTo_S96x128_S_d0_1 h_S_) main_v41 main_c_15
  let main_v43 : IVec S_ 1 := andi main_v38 main_v42
  let main_v44 : FVec F S96x128 .f32 := Host.absf main_arg10
  let main_cst_16 : FVec F S_ .f32 := constant S_ .f32 0x7F800000#32
  let main_v45 : FVec F S96x128 .f32 := broadcastInDim S96x128 ![] bcast_S_S96x128 main_cst_16
  let main_v46 : IVec S96x128 1 := cmpf .olt main_v44 main_v45
  let main_c_17 : IVec S_ 1 := constantI S_ 1 1#1
  let main_v47 : IVec S_ 1 := (fun x v => Host.reduce IntOp.andi x v reducesTo_S96x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S96 .f32) (main_arg6 : FVec F S96x128 .f32) (main_arg7 : FVec F S128 .f32) (main_arg8 : FVec F S96x128 .f32) (main_arg9 : FVec F S96x128 .f32) (main_arg10 : FVec F S96x128 .f32) (main_arg11 : FVec F S128 .f32) (main_v13 : IVec S_ 1) (main_v16 : IVec S128x96 1) : IVec S_ 1 :=
  let main_c_5 : IVec S_ 1 := constantI S_ 1 1#1
  let main_v17 : IVec S_ 1 := (fun x v => Host.reduce IntOp.andi x v reducesTo_S128x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x128 .f32 := Host.absf main_arg6
  let main_cst_8 : FVec F S_ .f32 := constant S_ .f32 0x7F800000#32
  let main_v25 : FVec F S96x128 .f32 := broadcastInDim S96x128 ![] bcast_S_S96x128 main_cst_8
  let main_v26 : IVec S96x128 1 := cmpf .olt main_v24 main_v25
  let main_c_9 : IVec S_ 1 := constantI S_ 1 1#1
  let main_v27 : IVec S_ 1 := (fun x v => Host.reduce IntOp.andi x v reducesTo_S96x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : FVec F S50000x128 .f32) (main_arg2 : IVec S2x800000 32) (main_arg3 : FVec F S800000 .f32) (main_arg4 : FVec F S128x96 .f32) (main_arg5 : FVec F S96 .f32) (main_arg6 : FVec F S96x128 .f32) (main_arg7 : FVec F S128 .f32) (main_arg8 : FVec F S96x128 .f32) (main_arg9 : FVec F S96x128 .f32) (main_arg10 : FVec F S96x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S800000 .f32 := Host.absf main_arg3
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S128x96 .f32 := Host.absf main_arg4
  let main_cst_4 : FVec F S_ .f32 := constant S_ .f32 0x7F800000#32
  let main_v15 : FVec F S128x96 .f32 := broadcastInDim S128x96 ![] bcast_S_S128x96 main_cst_4
  let main_v16 : IVec S128x96 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x96 : Shape := ⟨2, ![128, 96]⟩
abbrev S96 : Shape := ⟨1, ![96]⟩
abbrev S96x128 : Shape := ⟨2, ![96, 128]⟩
abbrev S128 : Shape := ⟨1, ![128]⟩
abbrev S1x800000 : Shape := ⟨2, ![1, 800000]⟩
abbrev S1x96 : Shape := ⟨2, ![1, 96]⟩
abbrev S50000x96 : Shape := ⟨2, ![50000, 96]⟩
abbrev S2000x128 : Shape := ⟨2, ![2000, 128]⟩
abbrev S2000x96 : Shape := ⟨2, ![2000, 96]⟩
abbrev S_ : Shape := ⟨0, ![]⟩
abbrev S800000x1 : Shape := ⟨2, ![800000, 1]⟩
abbrev S800000x96 : Shape := ⟨2, ![800000, 96]⟩
abbrev S50000 : Shape := ⟨1, ![50000]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 101
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x800000, .i32⟩
  | .hbm, ⟨3, _⟩ => ⟨S800000, .f32⟩
  | .hbm, ⟨4, _⟩ => ⟨S128x96, .f32⟩
  | .hbm, ⟨5, _⟩ => ⟨S96, .f32⟩
  | .hbm, ⟨6, _⟩ => ⟨S96x128, .f32⟩
  | .hbm, ⟨7, _⟩ => ⟨S128, .f32⟩
  | .hbm, ⟨8, _⟩ => ⟨S96x128, .f32⟩
  | .hbm, ⟨9, _⟩ => ⟨S96x128, .f32⟩
  | .hbm, ⟨10, _⟩ => ⟨S96x128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S1x96, .f32⟩
  | .hbm, ⟨17, _⟩ => ⟨S50000x96, .f32⟩
  | .hbm, ⟨18, _⟩ => ⟨S50000x128, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x96, .f32⟩
  | .hbm, ⟨28, _⟩ => ⟨S800000x1, .f32⟩
  | .hbm, ⟨29, _⟩ => ⟨S800000x96, .f32⟩
  | .hbm, ⟨30, _⟩ => ⟨S800000x96, .f32⟩
  | .hbm, ⟨31, _⟩ => ⟨S_, .f32⟩
  | .hbm, ⟨32, _⟩ => ⟨S50000x96, .f32⟩
  | .hbm, ⟨33, _⟩ => ⟨S800000x1, .i32⟩
  | .hbm, ⟨34, _⟩ => ⟨S50000x96, .f32⟩
  | .hbm, ⟨35, _⟩ => ⟨S_, .f32⟩
  | .hbm, ⟨36, _⟩ => ⟨S800000, .f32⟩
  | .hbm, ⟨37, _⟩ => ⟨S_, .f32⟩
  | .hbm, ⟨38, _⟩ => ⟨S50000, .f32⟩
  | .hbm, ⟨39, _⟩ => ⟨S800000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000x1, .f32⟩
  | .hbm, ⟨45, _⟩ => ⟨S50000x96, .f32⟩
  | .hbm, ⟨46, _⟩ => ⟨S50000x96, .f32⟩
  | .hbm, ⟨47, _⟩ => ⟨S_, .f32⟩
  | .hbm, ⟨48, _⟩ => ⟨S50000, .f32⟩
  | .hbm, ⟨49, _⟩ => ⟨S800000x1, .i32⟩
  | .hbm, ⟨50, _⟩ => ⟨S50000, .f32⟩
  | .hbm, ⟨51, _⟩ => ⟨S_, .f32⟩
  | .hbm, ⟨52, _⟩ => ⟨S50000, .f32⟩
  | .hbm, ⟨53, _⟩ => ⟨S50000, .i1⟩
  | .hbm, ⟨54, _⟩ => ⟨S_, .f32⟩
  | .hbm, ⟨55, _⟩ => ⟨S50000, .f32⟩
  | .hbm, ⟨56, _⟩ => ⟨S50000, .f32⟩
  | .hbm, ⟨57, _⟩ => ⟨S50000, .f32⟩
  | .hbm, ⟨58, _⟩ => ⟨S_, .f32⟩
  | .hbm, ⟨59, _⟩ => ⟨S_, .f32⟩
  | .hbm, ⟨60, _⟩ => ⟨S50000, .f32⟩
  | .hbm, ⟨61, _⟩ => ⟨S50000, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000, .f32⟩
  | .hbm, ⟨71, _⟩ => ⟨S800000, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000, .f32⟩
  | .hbm, ⟨81, _⟩ => ⟨S800000, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x128, .f32⟩
  | .hbm, ⟨91, _⟩ => ⟨S800000x1, .f32⟩
  | .hbm, ⟨92, _⟩ => ⟨S800000x128, .f32⟩
  | .hbm, ⟨93, _⟩ => ⟨S800000x128, .f32⟩
  | .hbm, ⟨94, _⟩ => ⟨S_, .f32⟩
  | .hbm, ⟨95, _⟩ => ⟨S50000x128, .f32⟩
  | .hbm, ⟨96, _⟩ => ⟨S800000x1, .i32⟩
  | .hbm, ⟨97, _⟩ => ⟨S50000x128, .f32⟩
  | .hbm, ⟨98, _⟩ => ⟨S1x128, .f32⟩
  | .hbm, ⟨99, _⟩ => ⟨S1x128, .f32⟩
  | .hbm, ⟨100, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x96, .f32⟩
  | .local _ .vmem, ⟨3, _⟩ => ⟨S1x96, .f32⟩
  | .local _ .vmem, ⟨4, _⟩ => ⟨S96x128, .f32⟩
  | .local _ .vmem, ⟨5, _⟩ => ⟨S2000x96, .f32⟩
  | .local _ .vmem, ⟨6, _⟩ => ⟨S2000x96, .f32⟩
  | .local _ .vmem, ⟨7, _⟩ => ⟨S2000x128, .f32⟩
  | .local _ .vmem, ⟨8, _⟩ => ⟨S2000x128, .f32⟩
  | .local _ .vmem, ⟨9, _⟩ => ⟨S2000x96, .f32⟩
  | .local _ .vmem, ⟨10, _⟩ => ⟨S2000x96, .f32⟩
  | .local _ .vmem, ⟨11, _⟩ => ⟨S2000x96, .f32⟩
  | .local _ .vmem, ⟨12, _⟩ => ⟨S2000x96, .f32⟩
  | .local _ .vmem, ⟨13, _⟩ => ⟨S2000x128, .f32⟩
  | .local _ .vmem, ⟨14, _⟩ => ⟨S2000x128, .f32⟩
  | .local _ .vmem, ⟨15, _⟩ => ⟨S96x128, .f32⟩
  | .local _ .vmem, ⟨16, _⟩ => ⟨S1x128, .f32⟩
  | .local _ .vmem, ⟨17, _⟩ => ⟨S96x128, .f32⟩
  | .local _ .vmem, ⟨18, _⟩ => ⟨S96x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_call0_v0 : Ref sig .tc := ⟨.hbm, 59, rfl⟩
abbrev main_call0_v1 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_c_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_10 : Ref sig .tc := ⟨.hbm, 72, rfl⟩
abbrev main_v45 : Ref sig .tc := ⟨.hbm, 73, rfl⟩
abbrev main_v46 : Ref sig .tc := ⟨.hbm, 74, rfl⟩
abbrev main_c_11 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_12 : Ref sig .tc := ⟨.hbm, 82, rfl⟩
abbrev main_v53 : Ref sig .tc := ⟨.hbm, 83, rfl⟩
abbrev main_v54 : Ref sig .tc := ⟨.hbm, 84, rfl⟩
abbrev main_c_13 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_14 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S96x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S96x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S96x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S96_S1x96 : S96.ShapeCasts S1x96
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  inb_S2000x96_S2000x96_0_0 : ∀ a, (![0, 0] : Fin 2 → Nat) a + S2000x96.size a ≤ S2000x96.size a
  h_S2000x96 : 0 < S2000x96.numel
  inb_S96x128_S96x128_0_0 : ∀ a, (![0, 0] : Fin 2 → Nat) a + S96x128.size a ≤ S96x128.size a
  h_S96x128 : 0 < S96x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x96_S2000x96 : S2000x96.ShapeCasts S2000x96
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x128_S2000x128 : S2000x128.ShapeCasts S2000x128
  dot_S2000x128_S128x96_S2000x96_1_0_0_1_n_n_wf : DotDims.WF S2000x128 S128x96 S2000x96 [1] [0] [0] [1] [] []
  dot_S2000x96_S96x128_S2000x128_1_0_0_1_n_n_wf : DotDims.WF S2000x96 S96x128 S2000x128 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x128.size a ≤ S96x128.size a
  hwx0_3 : ∀ i : grid0.Coords, EltTy.bits .f32 = 32 ∨ (Rect.block (s := S96x128) S96x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x96.size a ≤ S50000x96.size a
  hwx0_4 : ∀ i : grid0.Coords, EltTy.bits .f32 = 32 ∨ (Rect.block (s := S50000x96) S2000x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x96.size a ≤ S50000x96.size a
  hwx1_0 : ∀ i : grid1.Coords, EltTy.bits .f32 = 32 ∨ (Rect.block (s := S50000x96) S2000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x96.size a ≤ S50000x96.size a
  hwx1_1 : ∀ i : grid1.Coords, EltTy.bits .f32 = 32 ∨ (Rect.block (s := S50000x96) S2000x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x128.size a ≤ S96x128.size a
  hwx1_3 : ∀ i : grid1.Coords, EltTy.bits .f32 = 32 ∨ (Rect.block (s := S96x128) S96x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S96x128.size a ≤ S96x128.size a
  hwx1_5 : ∀ i : grid1.Coords, EltTy.bits .f32 = 32 ∨ (Rect.block (s := S96x128) S96x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S96x128.size a ≤ S96x128.size a
  hwx1_6 : ∀ i : grid1.Coords, EltTy.bits .f32 = 32 ∨ (Rect.block (s := S96x128) S96x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)

variable [Facts₀]

def dot_S2000x128_S128x96_S2000x96_1_0_0_1_n_n : DotDims S2000x128 S128x96 S2000x96 where
  lhsContracting := [1]
  rhsContracting := [0]
  lhsNonContracting := [0]
  rhsNonContracting := [1]
  lhsBatch := []
  rhsBatch := []
  wf := dot_S2000x128_S128x96_S2000x96_1_0_0_1_n_n_wf
def dot_S2000x96_S96x128_S2000x128_1_0_0_1_n_n : DotDims S2000x96 S96x128 S2000x128 where
  lhsContracting := [1]
  rhsContracting := [0]
  lhsNonContracting := [0]
  rhsNonContracting := [1]
  lhsBatch := []
  rhsBatch := []
  wf := dot_S2000x96_S96x128_S2000x128_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S96x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S2000x96.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_0) S2000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v65) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S96x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v66) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S96x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S96x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v67) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v68) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x96 : Shape := ⟨2, ![128, 96]⟩
abbrev S96 : Shape := ⟨1, ![96]⟩
abbrev S96x128 : Shape := ⟨2, ![96, 128]⟩
abbrev S128 : Shape := ⟨1, ![128]⟩
abbrev S1x800000 : Shape := ⟨2, ![1, 800000]⟩
abbrev S50000x96 : Shape := ⟨2, ![50000, 96]⟩
abbrev S1x96 : Shape := ⟨2, ![1, 96]⟩
abbrev S_ : Shape := ⟨0, ![]⟩
abbrev S800000x1 : Shape := ⟨2, ![800000, 1]⟩
abbrev S800000x96 : Shape := ⟨2, ![800000, 96]⟩
abbrev S50000 : Shape := ⟨1, ![50000]⟩
abbrev S50000x1 : Shape := ⟨2, ![50000, 1]⟩
abbrev S1x128 : Shape := ⟨2, ![1, 128]⟩
abbrev S800000x128 : Shape := ⟨2, ![800000, 128]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S50000x128, .f32⟩
  | 2 => ⟨S2x800000, .i32⟩
  | 3 => ⟨S800000, .f32⟩
  | 4 => ⟨S128x96, .f32⟩
  | 5 => ⟨S96, .f32⟩
  | 6 => ⟨S96x128, .f32⟩
  | 7 => ⟨S128, .f32⟩
  | 8 => ⟨S96x128, .f32⟩
  | 9 => ⟨S96x128, .f32⟩
  | 10 => ⟨S96x128, .f32⟩
  | 11 => ⟨S128, .f32⟩
  | 12 => ⟨S1x800000, .i32⟩
  | 13 => ⟨S800000, .i32⟩
  | 14 => ⟨S1x800000, .i32⟩
  | 15 => ⟨S800000, .i32⟩
  | 16 => ⟨S50000x96, .f32⟩
  | 17 => ⟨S1x96, .f32⟩
  | 18 => ⟨S50000x96, .f32⟩
  | 19 => ⟨S50000x96, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x96, .f32⟩
  | 29 => ⟨S800000x1, .f32⟩
  | 30 => ⟨S800000x96, .f32⟩
  | 31 => ⟨S800000x96, .f32⟩
  | 32 => ⟨S_, .f32⟩
  | 33 => ⟨S50000x96, .f32⟩
  | 34 => ⟨S800000x1, .i32⟩
  | 35 => ⟨S50000x96, .f32⟩
  | 36 => ⟨S_, .f32⟩
  | 37 => ⟨S800000, .f32⟩
  | 38 => ⟨S_, .f32⟩
  | 39 => ⟨S50000, .f32⟩
  | 40 => ⟨S800000x1, .i32⟩
  | 41 => ⟨S50000, .f32⟩
  | 42 => ⟨S_, .f32⟩
  | 43 => ⟨S50000, .f32⟩
  | 44 => ⟨S50000, .f32⟩
  | 45 => ⟨S50000x1, .f32⟩
  | 46 => ⟨S50000x96, .f32⟩
  | 47 => ⟨S50000x96, .f32⟩
  | 48 => ⟨S50000x128, .f32⟩
  | 49 => ⟨S1x128, .f32⟩
  | 50 => ⟨S50000x128, .f32⟩
  | 51 => ⟨S50000x128, .f32⟩
  | 52 => ⟨S50000x128, .f32⟩
  | 53 => ⟨S50000x128, .f32⟩
  | 54 => ⟨S_, .f32⟩
  | 55 => ⟨S50000, .f32⟩
  | 56 => ⟨S800000x1, .i32⟩
  | 57 => ⟨S50000, .f32⟩
  | 58 => ⟨S_, .f32⟩
  | 59 => ⟨S50000, .f32⟩
  | 60 => ⟨S50000, .i1⟩
  | 61 => ⟨S_, .f32⟩
  | 62 => ⟨S50000, .f32⟩
  | 63 => ⟨S50000, .f32⟩
  | 64 => ⟨S50000, .f32⟩
  | 65 => ⟨S_, .f32⟩
  | 66 => ⟨S_, .f32⟩
  | 67 => ⟨S50000, .f32⟩
  | 68 => ⟨S50000, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000, .f32⟩
  | 78 => ⟨S800000, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000, .f32⟩
  | 88 => ⟨S800000, .f32⟩
  | 89 => ⟨S50000x128, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S800000x1, .f32⟩
  | 100 => ⟨S800000x128, .f32⟩
  | 101 => ⟨S800000x128, .f32⟩
  | 102 => ⟨S_, .f32⟩
  | 103 => ⟨S50000x128, .f32⟩
  | 104 => ⟨S800000x1, .i32⟩
  | 105 => ⟨S50000x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S_, .f32⟩
  | 115 => ⟨S_, .f32⟩
  | 116 => ⟨S50000x128, .f32⟩
  | 117 => ⟨S50000x128, .i1⟩
  | 118 => ⟨S_, .f32⟩
  | 119 => ⟨S50000x128, .f32⟩
  | 120 => ⟨S50000x128, .f32⟩
  | 121 => ⟨S50000x128, .f32⟩
  | 122 => ⟨S_, .f32⟩
  | 123 => ⟨S_, .f32⟩
  | 124 => ⟨S50000x128, .f32⟩
  | 125 => ⟨S50000x128, .i1⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S_, .f32⟩
  | 4 => ⟨S50000x128, .f32⟩
  | 5 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_call0_v0 : Ref sig .tc := ⟨.hbm, 66, rfl⟩
abbrev main_call0_v1 : Ref sig .tc := ⟨.hbm, 67, rfl⟩
abbrev main_v44 : Ref sig .tc := ⟨.hbm, 68, rfl⟩
abbrev main_c_8 : Ref sig .tc := ⟨.hbm, 69, rfl⟩
abbrev main_v45 : Ref sig .tc := ⟨.hbm, 70, rfl⟩
abbrev main_v46 : Ref sig .tc := ⟨.hbm, 71, rfl⟩
abbrev main_c_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_10 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_12 : Ref sig .tc := ⟨.hbm, 90, rfl⟩
abbrev main_v62 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_14 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_call1_cst : Ref sig .tc := ⟨.hbm, 111, rfl⟩
abbrev main_call1_v0 : Ref sig .tc := ⟨.hbm, 112, rfl⟩
abbrev main_v80 : Ref sig .tc := ⟨.hbm, 113, rfl⟩
abbrev main_cst_15 : Ref sig .tc := ⟨.hbm, 114, rfl⟩
abbrev main_call2_cst : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_v81 : Ref sig .tc := ⟨.hbm, 121, rfl⟩
abbrev main_cst_16 : Ref sig .tc := ⟨.hbm, 122, rfl⟩
abbrev main_call3_cst : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_v82 : Ref sig .tc := ⟨.hbm, 129, rfl⟩
abbrev main_v83 : Ref sig .tc := ⟨.hbm, 130, rfl⟩
abbrev main_call4_cst : Ref sig .tc := ⟨.hbm, 131, rfl⟩
abbrev main_call4_v0 : Ref sig .tc := ⟨.hbm, 132, rfl⟩
abbrev main_v84 : Ref sig .tc := ⟨.hbm, 133, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S50000x128_S128x96_S50000x96_1_0_0_1_n_n_wf : DotDims.WF S50000x128 S128x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  dot_S50000x96_S96x128_S50000x128_1_0_0_1_n_n_wf : DotDims.WF S50000x96 S96x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x96_S96x128_S50000x128_1_0_0_1_n_n : DotDims S50000x96 S96x128 S50000x128 where
  lhsContracting := [1]
  rhsContracting := [0]
  lhsNonContracting := [0]
  rhsNonContracting := [1]
  lhsBatch := []
  rhsBatch := []
  wf := dot_S50000x96_S96x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  The mathematics both programs compute, stated once, over the exact extended reals.

  A graph cell over N = 50000 nodes and E = 800000 weighted edges (src → dst):
    xh   = x · pre_W + pre_b                                        (N × 96)
    mean = (Σ over edges into a node of xh[src] · w) / max(in-degree, 1)
    xw   = xh · arma_W                                              (N × 128)
    prop = Σ over edges into a node of xw[src] · (dinv[src] · w · dinv[dst]),   dinv = deg > 0 ? rsqrt(max(deg, 1e-30)) : 0
    out  = relu( leaky(mean · Wl + bl + xh · Wr) + leaky(relu(prop + xh · V + b)) )
  The edge part (gathers at src, scatter-adds at dst) is carried as two fixed functions `meanOf`, `propOf` of the
  node features and the edge data; nothing below ever opens them.  The dense parts are written entry by entry.
-/
import Idealize.ShloMosaic.PureOps
import Idealize.ShloMosaic.PureOps.Ideal
import Idealize.ShloMosaic.Lib.ValueIdx

noncomputable section

open scoped BigOperators

namespace Cert.Spec

open Idealize.ShloMosaic Idealize.ShloMosaic.ValueIdx

/-! ## Shapes -/

abbrev sNC : Shape := ⟨2, ![50000, 128]⟩
abbrev sNH : Shape := ⟨2, ![50000, 96]⟩
abbrev sN : Shape := ⟨1, ![50000]⟩
abbrev sN1 : Shape := ⟨2, ![50000, 1]⟩
abbrev sE : Shape := ⟨1, ![800000]⟩
abbrev sE1 : Shape := ⟨2, ![800000, 1]⟩
abbrev sEH : Shape := ⟨2, ![800000, 96]⟩
abbrev sEC : Shape := ⟨2, ![800000, 128]⟩
abbrev s2E : Shape := ⟨2, ![2, 800000]⟩
abbrev s1E : Shape := ⟨2, ![1, 800000]⟩
abbrev s0 : Shape := ⟨0, ![]⟩
abbrev sCH : Shape := ⟨2, ![128, 96]⟩
abbrev sHC : Shape := ⟨2, ![96, 128]⟩
abbrev sH : Shape := ⟨1, ![96]⟩
abbrev sC : Shape := ⟨1, ![128]⟩

/-! ## The edge part -/

/-- The shape relations the edge part's operations need.  All of them are propositions, so any two witnesses of this
    structure are equal: the two programs' instances of `meanOf` / `propOf` are the same functions. -/
structure ChainFacts : Prop where
  sl0 : s2E.Slices ![0, 0] s1E
  sl1 : s2E.Slices ![1, 0] s1E
  sc : s1E.ShapeCasts sE
  b0E : s0.BroadcastsInDim sE (![] : Fin 0 → Fin sE.rank)
  bEE1 : sE.BroadcastsInDim sE1 (![0] : Fin 1 → Fin sE1.rank)
  bE1EH : sE1.BroadcastsInDim sEH (![0, 1] : Fin 2 → Fin sEH.rank)
  b0NH : s0.BroadcastsInDim sNH (![] : Fin 0 → Fin sNH.rank)
  b0N : s0.BroadcastsInDim sN (![] : Fin 0 → Fin sN.rank)
  bNN1 : sN.BroadcastsInDim sN1 (![0] : Fin 1 → Fin sN1.rank)
  bN1NH : sN1.BroadcastsInDim sNH (![0, 1] : Fin 2 → Fin sNH.rank)
  bE1EC : sE1.BroadcastsInDim sEC (![0, 1] : Fin 2 → Fin sEC.rank)
  b0NC : s0.BroadcastsInDim sNC (![] : Fin 0 → Fin sNC.rank)
  gH : GatherDims.WF sNH sE1 sEH [1] [0] [] [0] [] 1 ![1, 96]
  sH : ScatterDims.WF sNH sE1 sEH [1] [0] [0] 1
  s1 : ScatterDims.WF sN sE1 sE [] [0] [0] 1
  g1 : GatherDims.WF sN sE1 sE [] [0] [] [0] [] 1 ![1]
  gC : GatherDims.WF sNC sE1 sEC [1] [0] [] [0] [] 1 ![1, 128]
  sC : ScatterDims.WF sNC sE1 sEC [1] [0] [0] 1

variable (h : ChainFacts)

/-- Row gather of an N × 96 array. -/
def gdH : GatherDims sNH sE1 sEH where
  offsetDims := [1]
  collapsedSliceDims := [0]
  operandBatchingDims := []
  startIndicesBatchingDims := []
  startIndexMap := [0]
  indexVectorDim := 1
  sliceSizes := ![1, 96]
  wf := h.gH
/-- Row scatter into an N × 96 array. -/
def sdH : ScatterDims sNH sE1 sEH where
  updateWindowDims := [1]
  insertedWindowDims := [0]
  scatterDimsToOperandDims := [0]
  indexVectorDim := 1
  wf := h.sH
/-- Element scatter into a length-N vector. -/
def sd1 : ScatterDims sN sE1 sE where
  updateWindowDims := []
  insertedWindowDims := [0]
  scatterDimsToOperandDims := [0]
  indexVectorDim := 1
  wf := h.s1
/-- Element gather of a length-N vector. -/
def gd1 : GatherDims sN sE1 sE where
  offsetDims := []
  collapsedSliceDims := [0]
  operandBatchingDims := []
  startIndicesBatchingDims := []
  startIndexMap := [0]
  indexVectorDim := 1
  sliceSizes := ![1]
  wf := h.g1
/-- Row gather of an N × 128 array. -/
def gdC : GatherDims sNC sE1 sEC where
  offsetDims := [1]
  collapsedSliceDims := [0]
  operandBatchingDims := []
  startIndicesBatchingDims := []
  startIndexMap := [0]
  indexVectorDim := 1
  sliceSizes := ![1, 128]
  wf := h.gC
/-- Row scatter into an N × 128 array. -/
def sdC : ScatterDims sNC sE1 sEC where
  updateWindowDims := [1]
  insertedWindowDims := [0]
  scatterDimsToOperandDims := [0]
  indexVectorDim := 1
  wf := h.sC

/-- The edges' source nodes: row 0 of the edge array. -/
def srcOf (ei : IVec s2E 32) : IVec sE 32 := shapeCast sE (extractStridedSlice s1E ![0, 0] ei h.sl0) h.sc
/-- The edges' destination nodes: row 1 of the edge array. -/
def dstOf (ei : IVec s2E 32) : IVec sE 32 := shapeCast sE (extractStridedSlice s1E ![1, 0] ei h.sl1) h.sc
/-- A negative node index counts from the end. -/
def wrap (v : IVec sE 32) : IVec sE 32 :=
  select (cmpi .slt v (broadcastInDim sE ![] h.b0E (constantI s0 32 0#32)))
    (addi v (broadcastInDim sE ![] h.b0E (constantI s0 32 50000#32))) v
/-- A per-edge vector as a column. -/
def col {α : Type} (v : sE.Idx → α) : sE1.Idx → α := broadcastInDim sE1 ![0] h.bEE1 v

/-- Mean aggregation: the weighted sum of the source rows over the edges into each node, over max(in-degree, 1). -/
def meanOf (xh : FVec Ideal sNH .f32) (ei : IVec s2E 32) (ew : FVec Ideal sE .f32) : FVec Ideal sNH .f32 :=
  Host.divf
    (Host.scatterAdd (sdH h) (broadcastInDim sNH ![] h.b0NH (constant s0 .f32 0x00000000#32)) (col h (dstOf h ei))
      (mulf (Host.gather (gdH h) xh (col h (wrap h (srcOf h ei)))) (broadcastInDim sEH ![0, 1] h.bE1EH (col h ew))))
    (broadcastInDim sNH ![0, 1] h.bN1NH (broadcastInDim sN1 ![0] h.bNN1
      (maximumf
        (Host.scatterAdd (sd1 h) (broadcastInDim sN ![] h.b0N (constant s0 .f32 0x00000000#32)) (col h (dstOf h ei))
          (broadcastInDim sE ![] h.b0E (constant s0 .f32 0x3F800000#32)))
        (broadcastInDim sN ![] h.b0N (constant s0 .f32 0x3F800000#32)))))

/-- Weighted in-degree. -/
def degOf (ei : IVec s2E 32) (ew : FVec Ideal sE .f32) : FVec Ideal sN .f32 :=
  Host.scatterAdd (sd1 h) (broadcastInDim sN ![] h.b0N (constant s0 .f32 0x00000000#32)) (col h (dstOf h ei)) ew

/-- deg^(-1/2) where the degree is positive, 0 elsewhere. -/
def dinvOf (ei : IVec s2E 32) (ew : FVec Ideal sE .f32) : FVec Ideal sN .f32 :=
  select (cmpf .ogt (degOf h ei ew) (broadcastInDim sN ![] h.b0N (constant s0 .f32 0x00000000#32)))
    (Host.rsqrt (maximumf (degOf h ei ew) (broadcastInDim sN ![] h.b0N (constant s0 .f32 0x0DA24260#32))))
    (broadcastInDim sN ![] h.b0N (id (constant s0 .f32 0x00000000#32)))

/-- The symmetric normalisation of an edge. -/
def normOf (ei : IVec s2E 32) (ew : FVec Ideal sE .f32) : FVec Ideal sE .f32 :=
  mulf (mulf (Host.gather (gd1 h) (dinvOf h ei ew) (col h (wrap h (srcOf h ei)))) ew)
    (Host.gather (gd1 h) (dinvOf h ei ew) (col h (wrap h (dstOf h ei))))

/-- Normalised propagation: the normalised sum of the source rows over the edges into each node. -/
def propOf (xw : FVec Ideal sNC .f32) (ei : IVec s2E 32) (ew : FVec Ideal sE .f32) : FVec Ideal sNC .f32 :=
  Host.scatterAdd (sdC h) (broadcastInDim sNC ![] h.b0NC (constant s0 .f32 0x00000000#32)) (col h (dstOf h ei))
    (mulf (Host.gather (gdC h) xw (col h (wrap h (srcOf h ei))))
      (broadcastInDim sEC ![0, 1] h.bE1EC (col h (normOf h ei ew))))

/-! ## The dense parts, entry by entry -/

/-- The only row of a 1 × n array, as a vector. -/
def rowVec {n : Nat} (b2 : FVec Ideal ⟨2, ![1, n]⟩ .f32) : FVec Ideal ⟨1, ![n]⟩ .f32 := fun q => b2 (ix2 0 (q 0))

/-- x · W + b. -/
def xhOf (x : FVec Ideal sNC .f32) (W : FVec Ideal sCH .f32) (b : FVec Ideal sH .f32) : FVec Ideal sNH .f32 :=
  fun i => (∑ k : Fin 128, x (ix2 (i 0) k) * W (ix2 k (i 1))) + b (ix1 (i 1))

/-- xh · W. -/
def xwOf (xh : FVec Ideal sNH .f32) (W : FVec Ideal sHC .f32) : FVec Ideal sNC .f32 :=
  fun i => ∑ k : Fin 96, xh (ix2 (i 0) k) * W (ix2 k (i 1))

/-- The literal 0. -/
abbrev zeroF : Ideal .f32 := FloatOps.ofBits (F := Ideal) .f32 0x00000000#32
/-- The negative slope, the float nearest 0.01. -/
abbrev slopeF : Ideal .f32 := FloatOps.ofBits (F := Ideal) .f32 0x3C23D70A#32

/-- max(v, 0). -/
def relu (v : Ideal .f32) : Ideal .f32 := max v zeroF
/-- v where v ≥ 0, slope · v elsewhere. -/
def leaky (v : Ideal .f32) : Ideal .f32 := Scalar.select (FloatOps.cmpf .oge v zeroF) v (slopeF * v)

/-- The two branches joined. -/
def finOf (mean xh : FVec Ideal sNH .f32) (prop : FVec Ideal sNC .f32) (Wl : FVec Ideal sHC .f32) (bl : FVec Ideal sC .f32)
    (Wr V : FVec Ideal sHC .f32) (b : FVec Ideal sC .f32) : FVec Ideal sNC .f32 :=
  fun i => relu
    (leaky (((∑ k : Fin 96, mean (ix2 (i 0) k) * Wl (ix2 k (i 1))) + bl (ix1 (i 1))) + (∑ k : Fin 96, xh (ix2 (i 0) k) * Wr (ix2 k (i 1))))
      + leaky (relu ((prop i + (∑ k : Fin 96, xh (ix2 (i 0) k) * V (ix2 k (i 1)))) + b (ix1 (i 1)))))

/-- The whole cell. -/
def result (x : FVec Ideal sNC .f32) (ei : IVec s2E 32) (ew : FVec Ideal sE .f32) (preW : FVec Ideal sCH .f32)
    (preb : FVec Ideal sH .f32) (Wl : FVec Ideal sHC .f32) (bl : FVec Ideal sC .f32) (Wr aW aV : FVec Ideal sHC .f32)
    (ab : FVec Ideal sC .f32) : FVec Ideal sNC .f32 :=
  finOf (meanOf h (xhOf x preW preb) ei ew) (xhOf x preW preb) (propOf h (xwOf (xhOf x preW preb) aW) ei ew) Wl bl Wr aV ab

/-- Any two witnesses give the same cell. -/
theorem result_irrel (h h' : ChainFacts) : result h = result h' := rfl

end Cert.Spec

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.KernelRegion0.lean ====
/-
  The first region's two result arrays, whole.

  Each of the 25 grid points takes 2000 consecutive rows of x and writes the same 2000 rows of xh = x · W + b and of
  xw = xh · A; the 25 row blocks tile the 50000 rows, so after the region the arrays are xh and xw entry by entry.
-/
import proofs.«181693_j44916767981746_1_alg».proof.Proof.Gen.KernelIdeal.Frame
import proofs.«181693_j44916767981746_1_alg».proof.Proof.Spec
import proofs.«181693_j44916767981746_1_alg».proof.Proof.LibPlainDot
import Idealize.ShloMosaic.Lib.Pipeline.Value
import Idealize.ShloMosaic.Lib.ValueLayout
import Idealize.ShloMosaic.PureOps.Ideal.Laws
set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

namespace Preprocess

/-! ## One row block: the two products at an entry

On a block of 2000 rows the body forms x · W, adds the bias row to every row, and multiplies the sum by A. Over the
extended reals a change of float format is the identity, so both products are the textbook sums. -/

/-- x · W contracts x's column axis with W's row axis, nothing batched. -/
theorem plain_xW : PlainDot.IsPlain dot_S2000x128_S128x96_S2000x96_1_0_0_1_n_n := ⟨rfl, rfl, rfl, rfl, rfl, rfl⟩
/-- xh · A contracts xh's column axis with A's row axis, nothing batched. -/
theorem plain_hA : PlainDot.IsPlain dot_S2000x96_S96x128_S2000x128_1_0_0_1_n_n := ⟨rfl, rfl, rfl, rfl, rfl, rfl⟩

/-- The 1 × 96 bias array spread over 2000 rows reads, at (p, q), the bias's entry q: the row coordinate is dropped
    because the bias has one row, the column coordinate is kept. -/
theorem bias_apply (x2 : Vec Ideal S1x96 .f32) (p : Fin 2000) (q : Fin 96) :
    broadcastTo S2000x96 (shapeCast S1x96 x2 shapeCasts_S1x96_S1x96) broadcasts_S1x96_S2000x96 (ix2 p q) = x2 (ix2 0 q) := by
  rw [shapeCast_self]
  exact broadcastTo_apply x2 broadcasts_S1x96_S2000x96 (ix2 p q) (ix2 0 q)
    (fun a => match a with | ⟨0, _⟩ => rfl | ⟨1, _⟩ => rfl)

/-- Entry (p, q) of the block of xh: row p of the x block against column q of W, plus the bias's entry q. -/
theorem pay1_apply (x0 : Vec Ideal S2000x128 .f32) (x1 : Vec Ideal S128x96 .f32) (x2 : Vec Ideal S1x96 .f32)
    (p : Fin 2000) (q : Fin 96) :
    k0_pay1 x0 x1 x2 (ix2 p q) = (∑ k : Fin 128, x0 (ix2 p k) * x1 (ix2 k q)) + x2 (ix2 0 q) := by
  unfold k0_pay1
  rw [addf_apply]
  refine congrArg₂ (· + ·) ?_ (bias_apply x2 p q)
  exact PlainDot.matmul_zero_apply plain_xW none _ _ p q

/-- Entry (p, q) of the block of xw: row p of the block of xh against column q of A. -/
theorem pay2_apply (x0 : Vec Ideal S2000x128 .f32) (x1 : Vec Ideal S128x96 .f32) (x2 : Vec Ideal S1x96 .f32)
    (x3 : Vec Ideal S96x128 .f32) (p : Fin 2000) (q : Fin 128) :
    k0_pay2 x0 x1 x2 x3 (ix2 p q) = ∑ k : Fin 96, k0_pay1 x0 x1 x2 (ix2 p k) * x3 (ix2 k q) := by
  unfold k0_pay2
  exact PlainDot.matmul_zero_apply plain_hA none _ _ p q

/-! ## The specification's two functions at an entry -/

/-- x · W + b at (r, q), the bias given as the only row of a 1 × 96 array. -/
theorem xhOf_apply (X : FVec Ideal Cert.Spec.sNC .f32) (W : FVec Ideal Cert.Spec.sCH .f32) (b2 : FVec Ideal ⟨2, ![1, 96]⟩ .f32)
    (r : Fin 50000) (q : Fin 96) :
    Cert.Spec.xhOf X W (Cert.Spec.rowVec b2) (ix2 r q) = (∑ k : Fin 128, X (ix2 r k) * W (ix2 k q)) + b2 (ix2 0 q) := rfl

/-- H · A at (r, q). -/
theorem xwOf_apply (H : FVec Ideal Cert.Spec.sNH .f32) (A : FVec Ideal Cert.Spec.sHC .f32) (r : Fin 50000) (q : Fin 128) :
    Cert.Spec.xwOf H A (ix2 r q) = ∑ k : Fin 96, H (ix2 r k) * A (ix2 k q) := rfl

/-! ## Where a block's entry sits in its array

The three row-blocked arrays (x, xh, xw) are cut into 25 blocks of 2000 rows, grid point t taking block t; W, the bias
and A are taken whole at every point. A block's coordinate on an axis is block index × block extent + the coordinate
inside the block. -/

/-- The two zero offsets, spelt as the constant function. -/
theorem hz : (![0, 0] : Fin 2 → Nat) = fun _ => 0 := funext fun a => by fin_cases a <;> rfl

/-- The block indices at each of the 25 grid points: the row-blocked arrays are at row block t, column block 0; the
    whole arrays at block (0, 0). -/
theorem idx_facts : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- There are 25 grid points. -/
theorem point_lt (t : Fin cfg0.N) : t.val < 25 := lt_of_lt_of_eq t.isLt N_0

/-- Row p of grid point t's row block is row 2000 t + p of the array. -/
def rowOf (t : Fin cfg0.N) (p : Fin 2000) : Fin 50000 := ⟨t.val * 2000 + p.val, by have := point_lt t; omega⟩

/-- Entry (p, k) of point t's block of x is entry (2000 t + p, k) of x. -/
theorem emb_x (t : Fin cfg0.N) (p : Fin 2000) (k : Fin 128) :
    ((cfg0.win 0).blk t).view.emb (ix2 p k) = ix2 (rowOf t p) k := by
  obtain ⟨e0, e1, -⟩ := idx_facts t
  funext a; apply Fin.ext
  match a with
  | ⟨0, _⟩ => show win0_0.index t (0 : Fin 2) * 2000 + 1 * p.val = t.val * 2000 + p.val; omega
  | ⟨1, _⟩ => show win0_0.index t (1 : Fin 2) * 128 + 1 * k.val = k.val; omega

/-- W is taken whole: an entry of the block is the same entry of W. -/
theorem emb_W (t : Fin cfg0.N) (k : Fin 128) (q : Fin 96) :
    ((cfg0.win 1).blk t).view.emb (ix2 k q) = ix2 k q := by
  obtain ⟨-, -, e0, e1, -⟩ := idx_facts t
  funext a; apply Fin.ext
  match a with
  | ⟨0, _⟩ => show win0_1.index t (0 : Fin 2) * 128 + 1 * k.val = k.val; omega
  | ⟨1, _⟩ => show win0_1.index t (1 : Fin 2) * 96 + 1 * q.val = q.val; omega

/-- The bias row is taken whole. -/
theorem emb_b (t : Fin cfg0.N) (r : Fin 1) (q : Fin 96) :
    ((cfg0.win 2).blk t).view.emb (ix2 r q) = ix2 r q := by
  obtain ⟨-, -, -, -, e0, e1, -⟩ := idx_facts t
  funext a; apply Fin.ext
  match a with
  | ⟨0, _⟩ => show win0_2.index t (0 : Fin 2) * 1 + 1 * r.val = r.val; omega
  | ⟨1, _⟩ => show win0_2.index t (1 : Fin 2) * 96 + 1 * q.val = q.val; omega

/-- A is taken whole. -/
theorem emb_A (t : Fin cfg0.N) (k : Fin 96) (q : Fin 128) :
    ((cfg0.win 3).blk t).view.emb (ix2 k q) = ix2 k q := by
  obtain ⟨-, -, -, -, -, -, e0, e1, -⟩ := idx_facts t
  funext a; apply Fin.ext
  match a with
  | ⟨0, _⟩ => show win0_3.index t (0 : Fin 2) * 96 + 1 * k.val = k.val; omega
  | ⟨1, _⟩ => show win0_3.index t (1 : Fin 2) * 128 + 1 * q.val = q.val; omega

/-- Entry (p, q) of point t's block of xh is entry (2000 t + p, q) of xh. -/
theorem emb_xh (t : Fin cfg0.N) (p : Fin 2000) (q : Fin 96) :
    ((cfg0.win 4).blk t).view.emb (ix2 p q) = ix2 (rowOf t p) q := by
  obtain ⟨-, -, -, -, -, -, -, -, e0, e1, -⟩ := idx_facts t
  funext a; apply Fin.ext
  match a with
  | ⟨0, _⟩ => show win0_4.index t (0 : Fin 2) * 2000 + 1 * p.val = t.val * 2000 + p.val; omega
  | ⟨1, _⟩ => show win0_4.index t (1 : Fin 2) * 96 + 1 * q.val = q.val; omega

/-- Entry (p, q) of point t's block of xw is entry (2000 t + p, q) of xw. -/
theorem emb_xw (t : Fin cfg0.N) (p : Fin 2000) (q : Fin 128) :
    ((cfg0.win 5).blk t).view.emb (ix2 p q) = ix2 (rowOf t p) q := by
  obtain ⟨-, -, -, -, -, -, -, -, -, -, e0, e1⟩ := idx_facts t
  funext a; apply Fin.ext
  match a with
  | ⟨0, _⟩ => show win0_5.index t (0 : Fin 2) * 2000 + 1 * p.val = t.val * 2000 + p.val; omega
  | ⟨1, _⟩ => show win0_5.index t (1 : Fin 2) * 128 + 1 * q.val = q.val; omega

/-! ## What a grid point writes back is its row block of xh and of xw -/

/-- At point t the block of xh at (p, q) is xh at (2000 t + p, q): row p of the x block is row 2000 t + p of x, and W and
    the bias are the whole arrays, so the two sums agree term by term. -/
theorem pay1_at (c : Dev nD) (t : Fin cfg0.N) (p : Fin 2000) (q : Fin 96) :
    k0_pay1 (iblk0 V c 0 t) (iblk0 V c 1 t) (iblk0 V c 2 t) (ix2 p q)
      = Cert.Spec.xhOf (V c main_arg1) (V c main_arg4) (Cert.Spec.rowVec (V c main_v4)) (ix2 (rowOf t p) q) := by
  rw [pay1_apply, xhOf_apply]
  refine congrArg₂ (· + ·) (Finset.sum_congr rfl fun k _ => congrArg₂ (· * ·) ?_ ?_) ?_
  · show V c main_arg1 (((cfg0.win 0).blk t).view.emb (ix2 p k)) = _
    rw [emb_x]
  · show V c main_arg4 (((cfg0.win 1).blk t).view.emb (ix2 k q)) = _
    rw [emb_W]
  · show V c main_v4 (((cfg0.win 2).blk t).view.emb (ix2 0 q)) = _
    rw [emb_b]

/-- At point t the block of xw at (p, q) is xw at (2000 t + p, q): row p of the block of xh is row 2000 t + p of xh
    (the entry above, column by column), and A is the whole array. -/
theorem pay2_at (c : Dev nD) (t : Fin cfg0.N) (p : Fin 2000) (q : Fin 128) :
    k0_pay2 (iblk0 V c 0 t) (iblk0 V c 1 t) (iblk0 V c 2 t) (iblk0 V c 3 t) (ix2 p q)
      = Cert.Spec.xwOf (Cert.Spec.xhOf (V c main_arg1) (V c main_arg4) (Cert.Spec.rowVec (V c main_v4))) (V c main_arg9)
          (ix2 (rowOf t p) q) := by
  rw [pay2_apply, xwOf_apply]
  refine Finset.sum_congr rfl fun k _ => congrArg₂ (· * ·) (pay1_at V c t p k) ?_
  show V c main_arg9 (((cfg0.win 3).blk t).view.emb (ix2 k q)) = _
  rw [emb_A]

/-- Point t writes back rows 2000 t … 2000 t + 1999 of xh: its one store covers the whole block, and its loads read
    the whole input blocks. -/
theorem flushed_xh (c : Dev nD) (t : Fin cfg0.N) :
    (dat0 V c).flushed 4 t = ((cfg0.win 4).blk t).view.read (Elt Ideal)
      (Cert.Spec.xhOf (V c main_arg1) (V c main_arg4) (Cert.Spec.rowVec (V c main_v4))) := by
  show (cfg0.win 4).cut (grid0.coords t) ((dat0 V c).after 4 t) = _
  rw [after0_4]
  unfold out0_4
  rw [View.canon_unit_zero hz]
  simp only [View.ld_unit_zero (S := S2000x128) hz, View.ld_unit_zero (S := S128x96) hz, View.ld_unit_zero (S := S1x96) hz]
  funext j
  obtain ⟨p, q, rfl⟩ : ∃ (p : Fin 2000) (q : Fin 96), j = ix2 p q := ⟨j 0, j 1, eq_ix2 j⟩
  show k0_pay1 (iblk0 V c 0 t) (iblk0 V c 1 t) (iblk0 V c 2 t) (ix2 p q)
    = Cert.Spec.xhOf (V c main_arg1) (V c main_arg4) (Cert.Spec.rowVec (V c main_v4)) (((cfg0.win 4).blk t).view.emb (ix2 p q))
  rw [emb_xh]
  exact pay1_at V c t p q

/-- Point t writes back rows 2000 t … 2000 t + 1999 of xw. -/
theorem flushed_xw (c : Dev nD) (t : Fin cfg0.N) :
    (dat0 V c).flushed 5 t = ((cfg0.win 5).blk t).view.read (Elt Ideal)
      (Cert.Spec.xwOf (Cert.Spec.xhOf (V c main_arg1) (V c main_arg4) (Cert.Spec.rowVec (V c main_v4))) (V c main_arg9)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x96) hz, View.ld_unit_zero (S := S1x96) hz,
    View.ld_unit_zero (S := S96x128) hz]
  funext j
  obtain ⟨p, q, rfl⟩ : ∃ (p : Fin 2000) (q : Fin 128), j = ix2 p q := ⟨j 0, j 1, eq_ix2 j⟩
  show k0_pay2 (iblk0 V c 0 t) (iblk0 V c 1 t) (iblk0 V c 2 t) (iblk0 V c 3 t) (ix2 p q)
    = Cert.Spec.xwOf (Cert.Spec.xhOf (V c main_arg1) (V c main_arg4) (Cert.Spec.rowVec (V c main_v4))) (V c main_arg9)
        (((cfg0.win 5).blk t).view.emb (ix2 p q))
  rw [emb_xw]
  exact pay2_at V c t p q

/-! ## The 25 row blocks tile the 50000 rows -/

/-- An entry of xh is in point t's block iff each coordinate is in the block's range on its axis. -/
theorem mem_blk_xh (t : Fin cfg0.N) (i : S50000x96.Idx) :
    i ∈ ((cfg0.win 4).blk t).view.set ↔ ∀ a : Fin 2, win0_4.index t a * S2000x96.size a ≤ (i a).val ∧ (i a).val < win0_4.index t a * S2000x96.size a + S2000x96.size a := by
  show i ∈ ((View.whole main_v5_0).slice (win0_4.rect t)).set ↔ _
  rw [View.set_slice_whole, Rect.mem_set_unit]
  exact Iff.rfl

/-- An entry of xw is in point t's block iff each coordinate is in the block's range on its axis. -/
theorem mem_blk_xw (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v5_1).slice (win0_5.rect t)).set ↔ _
  rw [View.set_slice_whole, Rect.mem_set_unit]
  exact Iff.rfl

/-- Row r lies in the row block of grid point r / 2000, and r / 2000 < 25 because r < 50000. -/
theorem point_of_row (r : Nat) (hr : r < 50000) : ∃ t : Fin cfg0.N, t.val = r / 2000 :=
  ⟨⟨r / 2000, lt_of_lt_of_eq (by omega) N_0.symm⟩, rfl⟩

/-- Every entry of xh is in some point's block: 2000 (r / 2000) ≤ r < 2000 (r / 2000) + 2000, and every column is in
    the one column block. -/
theorem cover_xh (i : S50000x96.Idx) : ∃ t : Fin cfg0.N, (cfg0.win 4).flush t = true ∧ i ∈ ((cfg0.win 4).blk t).view.set := by
  have hi0 : (i 0).val < 50000 := (i 0).isLt
  have hi1 : (i 1).val < 96 := (i 1).isLt
  obtain ⟨t, ht⟩ := point_of_row (i 0).val hi0
  obtain ⟨-, -, -, -, -, -, -, -, e0, e1, -⟩ := idx_facts t
  refine ⟨t, flush0_4 t, ?_⟩
  rw [mem_blk_xh]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 96 ≤ (i 1).val ∧ (i 1).val < win0_4.index t (1 : Fin 2) * 96 + 96; omega

/-- Every entry of xw is in some point's block, likewise. -/
theorem cover_xw (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := point_of_row (i 0).val hi0
  obtain ⟨-, -, -, -, -, -, -, -, -, -, e0, e1⟩ := idx_facts t
  refine ⟨t, flush0_5 t, ?_⟩
  rw [mem_blk_xw]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

end Preprocess

/-! ## The arrays after the region

Every point writes back its block of one fixed array, and the blocks cover the array, so the array ends as that one. -/

/-- After the region, result window 4's array is x · W + b of the arrays the region found. -/
theorem arr0_4 (c : Dev nD) :
    (dat0 V c).arrAt 4 cfg0.N = Cert.Spec.xhOf (V c main_arg1) (V c main_arg4) (Cert.Spec.rowVec (V c main_v4)) :=
  (dat0 V c).arrAt_eq_of_cover 4 _ (fun t _ => Preprocess.flushed_xh V c t) Preprocess.cover_xh

/-- After the region, result window 5's array is (x · W + b) · A of the arrays the region found. -/
theorem arr0_5 (c : Dev nD) :
    (dat0 V c).arrAt 5 cfg0.N
      = Cert.Spec.xwOf (Cert.Spec.xhOf (V c main_arg1) (V c main_arg4) (Cert.Spec.rowVec (V c main_v4))) (V c main_arg9) :=
  (dat0 V c).arrAt_eq_of_cover 5 _ (fun t _ => Preprocess.flushed_xw V c t) Preprocess.cover_xw

end Cert.KernelIdeal.Val

end
-- ==== Proof.KernelRegion1.lean ====
/-
  The second region's result array, whole.

  Each of the 25 grid points takes 2000 consecutive rows of mean, xh and prop and writes the same 2000 rows of the
  joined branches; the row blocks tile the 50000 rows, so after the region the array is the cell's result entry by entry.
-/
import proofs.«181693_j44916767981746_1_alg».proof.Proof.Gen.KernelIdeal.Frame
import proofs.«181693_j44916767981746_1_alg».proof.Proof.Spec
import proofs.«181693_j44916767981746_1_alg».proof.Proof.LibPlainDot
import Idealize.ShloMosaic.Lib.Pipeline.Value
import Idealize.ShloMosaic.Lib.ValueLayout
import Idealize.ShloMosaic.PureOps.Ideal.Laws
set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

namespace Finalize

/-! ## One block's arithmetic, entry by entry -/

/-- The block's products contract the left factor's columns with the right factor's rows; nothing is batched. -/
theorem plainDot : PlainDot.IsPlain (M := 2000) (K := 96) (N := 128) dot_S2000x96_S96x128_S2000x128_1_0_0_1_n_n :=
  ⟨rfl, rfl, rfl, rfl, rfl, rfl⟩

/-- Narrowing the activations' format changes no exact value. -/
theorem narrowed_apply (xh : Vec Ideal S2000x96 .f32) (i : S2000x96.Idx) : k1_pay2 (F := Ideal) xh i = xh i := by
  unfold k1_pay2
  rw [shapeCast_self]
  rfl

/-- A product of a row block with a 96 × 128 weight, both narrowed, is the textbook sum over the 96 columns. -/
theorem product_apply (a : FVec Ideal S2000x96 .bf16) (W : Vec Ideal S96x128 .f32) (p : Fin 2000) (q : Fin 128) :
    matmul dot_S2000x96_S96x128_S2000x128_1_0_0_1_n_n none a (truncf .bf16 W bitsLt_bf16_f32) (constant S2000x128 .f32 0x00000000#32) (ix2 p q)
      = ∑ k : Fin 96, a (ix2 p k) * W (ix2 k q) :=
  PlainDot.matmul_zero_apply plainDot none a (truncf .bf16 W bitsLt_bf16_f32) p q

/-- A 1 × 128 row spread over the 2000 rows reads its one row everywhere. -/
theorem rowBias_apply (b2 : Vec Ideal S1x128 .f32) (p : Fin 2000) (q : Fin 128) :
    broadcastTo S2000x128 b2 broadcasts_S1x128_S2000x128 (ix2 p q) = b2 (ix2 0 q) :=
  broadcastTo_1b_ab_apply b2 broadcasts_S1x128_S2000x128 p q

/-- The propagation branch at an entry: prop plus xh · V plus the bias, clipped below at 0. -/
theorem propBranch_apply (xh : Vec Ideal S2000x96 .f32) (W : Vec Ideal S96x128 .f32) (prop : Vec Ideal S2000x128 .f32)
    (b2 : Vec Ideal S1x128 .f32) (p : Fin 2000) (q : Fin 128) :
    k1_pay3 (F := Ideal) xh W prop b2 (ix2 p q)
      = Cert.Spec.relu ((prop (ix2 p q) + ∑ k : Fin 96, xh (ix2 p k) * W (ix2 k q)) + b2 (ix2 0 q)) := by
  unfold k1_pay3
  simp only [maximumf_apply, addf_apply, broadcast_apply, product_apply, shapeCast_self, narrowed_apply]
  rw [rowBias_apply]
  rfl

/-- The mean branch at an entry: mean · Wl plus the bias plus xh · Wr, through the leaky slope. -/
theorem meanBranch_apply (mean xh : Vec Ideal S2000x96 .f32) (Wl Wr : Vec Ideal S96x128 .f32) (bl2 : Vec Ideal S1x128 .f32)
    (p : Fin 2000) (q : Fin 128) :
    k1_pay4 (F := Ideal) mean xh Wl Wr bl2 (ix2 p q)
      = Cert.Spec.leaky (((∑ k : Fin 96, mean (ix2 p k) * Wl (ix2 k q)) + bl2 (ix2 0 q)) + ∑ k : Fin 96, xh (ix2 p k) * Wr (ix2 k q)) := by
  unfold k1_pay4
  simp only [select_apply, cmpf_apply, mulf_apply, addf_apply, broadcast_apply, product_apply, shapeCast_self,
    narrowed_apply, truncf_apply]
  rw [rowBias_apply]
  rfl

/-- The two branches joined at an entry: the mean branch plus the propagation branch through the leaky slope, clipped below at 0. -/
theorem joined_apply (v28 v33 : FVec Ideal S2000x128 .f32) (i : S2000x128.Idx) :
    k1_pay1 (F := Ideal) v28 v33 (cmpf .oge v28 (broadcast S2000x128 Cert.Spec.zeroF)) i
      = Cert.Spec.relu (v33 i + Cert.Spec.leaky (v28 i)) := by
  unfold k1_pay1
  rfl

/-- The whole block at an entry, from the eight blocks the body loads. -/
theorem block_apply (mean xh : Vec Ideal S2000x96 .f32) (prop : Vec Ideal S2000x128 .f32) (Wl Wr W : Vec Ideal S96x128 .f32)
    (bl2 b2 : Vec Ideal S1x128 .f32) (p : Fin 2000) (q : Fin 128) :
    k1_pay1 (F := Ideal) (k1_pay3 xh W prop b2) (k1_pay4 mean xh Wl Wr bl2) (k1_pay5 xh W prop b2) (ix2 p q)
      = Cert.Spec.relu
          (Cert.Spec.leaky (((∑ k : Fin 96, mean (ix2 p k) * Wl (ix2 k q)) + bl2 (ix2 0 q)) + ∑ k : Fin 96, xh (ix2 p k) * Wr (ix2 k q))
            + Cert.Spec.leaky (Cert.Spec.relu ((prop (ix2 p q) + ∑ k : Fin 96, xh (ix2 p k) * W (ix2 k q)) + b2 (ix2 0 q)))) := by
  have e : k1_pay5 (F := Ideal) xh W prop b2 = cmpf .oge (k1_pay3 (F := Ideal) xh W prop b2) (broadcast S2000x128 Cert.Spec.zeroF) := by
    unfold k1_pay5; rfl
  rw [e, joined_apply, meanBranch_apply, propBranch_apply]

/-! ## From the blocks to the array -/

theorem zeroOffsets : (![0, 0] : Fin 2 → Nat) = fun _ => 0 := funext fun a => by fin_cases a <;> rfl

/-- The block index maps over the 25 points: mean, xh, prop and the result sit at row block `t`, column block 0. -/
theorem rowBlocks : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_8.index t (0 : Fin 2) = t.val ∧ win1_8.index t (1 : Fin 2) = 0) :=
  (by decide +kernel : ∀ t : Fin grid1.N, _)

/-- The three weights and the two bias rows are one block each, at block (0, 0), at every point. -/
theorem wholeBlocks : ∀ t : Fin cfg1.N,
    (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0) :=
  (by decide +kernel : ∀ t : Fin grid1.N, _)

/-- Row `p` of point `t`'s block is row `2000 t + p` of the 50000. -/
theorem rowLt (t : Fin cfg1.N) (p : Fin 2000) : t.val * 2000 + p.val < 50000 := by
  have ht : t.val < 25 := Nat.lt_of_lt_of_eq t.isLt (show cfg1.N = 25 from N_1)
  have hp := p.isLt
  omega

/-- mean's block at point `t` is rows `2000 t …` of mean. -/
theorem meanBlock_apply (c : Dev nD) (t : Fin cfg1.N) (p : Fin 2000) (k : Fin 96) :
    (iblk1 V c 0 t : Vec Ideal S2000x96 .f32) (ix2 p k)
      = (V c main_v27 : S50000x96.Idx → Ideal .f32) (ix2 ⟨t.val * 2000 + p.val, rowLt t p⟩ k) := by
  obtain ⟨⟨e0, e1⟩, -⟩ := rowBlocks t
  unfold iblk1
  rw [View.read_apply]
  show V c main_v27 _ = V c main_v27 _
  refine congrArg (V c main_v27) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 96 + 1 * k.val = k.val; rw [e1]; omega

/-- xh's block at point `t` is rows `2000 t …` of xh. -/
theorem xhBlock_apply (c : Dev nD) (t : Fin cfg1.N) (p : Fin 2000) (k : Fin 96) :
    (iblk1 V c 1 t : Vec Ideal S2000x96 .f32) (ix2 p k)
      = (V c main_v5_0 : S50000x96.Idx → Ideal .f32) (ix2 ⟨t.val * 2000 + p.val, rowLt t p⟩ k) := by
  obtain ⟨-, ⟨e0, e1⟩, -⟩ := rowBlocks t
  unfold iblk1
  rw [View.read_apply]
  show V c main_v5_0 _ = V c main_v5_0 _
  refine congrArg (V c main_v5_0) (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 96 + 1 * k.val = k.val; rw [e1]; omega

/-- prop's block at point `t` is rows `2000 t …` of prop. -/
theorem propBlock_apply (c : Dev nD) (t : Fin cfg1.N) (p : Fin 2000) (q : Fin 128) :
    (iblk1 V c 2 t : Vec Ideal S2000x128 .f32) (ix2 p q)
      = (V c main_v65 : S50000x128.Idx → Ideal .f32) (ix2 ⟨t.val * 2000 + p.val, rowLt t p⟩ q) := by
  obtain ⟨-, -, ⟨e0, e1⟩, -⟩ := rowBlocks t
  unfold iblk1
  rw [View.read_apply]
  show V c main_v65 _ = V c main_v65 _
  refine congrArg (V c main_v65) (funext fun a => Fin.ext ?_)
  match a with
  | ⟨0, _⟩ => show win1_2.index t (0 : Fin 2) * 2000 + 1 * p.val = t.val * 2000 + p.val; rw [e0]; omega
  | ⟨1, _⟩ => show win1_2.index t (1 : Fin 2) * 128 + 1 * q.val = q.val; rw [e1]; omega

/-- Wl's one block is Wl. -/
theorem wlBlock_apply (c : Dev nD) (t : Fin cfg1.N) (k : Fin 96) (q : Fin 128) :
    (iblk1 V c 3 t : Vec Ideal S96x128 .f32) (ix2 k q) = (V c main_arg6 : S96x128.Idx → Ideal .f32) (ix2 k q) := by
  obtain ⟨⟨e0, e1⟩, -⟩ := wholeBlocks t
  unfold iblk1
  rw [View.read_apply]
  show V c main_arg6 _ = V c main_arg6 _
  refine congrArg (V c main_arg6) (funext fun a => Fin.ext ?_)
  match a with
  | ⟨0, _⟩ => show win1_3.index t (0 : Fin 2) * 96 + 1 * k.val = k.val; rw [e0]; omega
  | ⟨1, _⟩ => show win1_3.index t (1 : Fin 2) * 128 + 1 * q.val = q.val; rw [e1]; omega

/-- The first bias row's one block is the row. -/
theorem blBlock_apply (c : Dev nD) (t : Fin cfg1.N) (u : Fin 1) (q : Fin 128) :
    (iblk1 V c 4 t : Vec Ideal S1x128 .f32) (ix2 u q) = (V c main_v66 : S1x128.Idx → Ideal .f32) (ix2 u q) := by
  obtain ⟨-, ⟨e0, e1⟩, -⟩ := wholeBlocks t
  unfold iblk1
  rw [View.read_apply]
  show V c main_v66 _ = V c main_v66 _
  refine congrArg (V c main_v66) (funext fun a => Fin.ext ?_)
  match a with
  | ⟨0, _⟩ => show win1_4.index t (0 : Fin 2) * 1 + 1 * u.val = u.val; rw [e0]; omega
  | ⟨1, _⟩ => show win1_4.index t (1 : Fin 2) * 128 + 1 * q.val = q.val; rw [e1]; omega

/-- Wr's one block is Wr. -/
theorem wrBlock_apply (c : Dev nD) (t : Fin cfg1.N) (k : Fin 96) (q : Fin 128) :
    (iblk1 V c 5 t : Vec Ideal S96x128 .f32) (ix2 k q) = (V c main_arg8 : S96x128.Idx → Ideal .f32) (ix2 k q) := by
  obtain ⟨-, -, ⟨e0, e1⟩, -⟩ := wholeBlocks t
  unfold iblk1
  rw [View.read_apply]
  show V c main_arg8 _ = V c main_arg8 _
  refine congrArg (V c main_arg8) (funext fun a => Fin.ext ?_)
  match a with
  | ⟨0, _⟩ => show win1_5.index t (0 : Fin 2) * 96 + 1 * k.val = k.val; rw [e0]; omega
  | ⟨1, _⟩ => show win1_5.index t (1 : Fin 2) * 128 + 1 * q.val = q.val; rw [e1]; omega

/-- The propagation weight's one block is the weight. -/
theorem wvBlock_apply (c : Dev nD) (t : Fin cfg1.N) (k : Fin 96) (q : Fin 128) :
    (iblk1 V c 6 t : Vec Ideal S96x128 .f32) (ix2 k q) = (V c main_arg10 : S96x128.Idx → Ideal .f32) (ix2 k q) := by
  obtain ⟨-, -, -, ⟨e0, e1⟩, -⟩ := wholeBlocks t
  unfold iblk1
  rw [View.read_apply]
  show V c main_arg10 _ = V c main_arg10 _
  refine congrArg (V c main_arg10) (funext fun a => Fin.ext ?_)
  match a with
  | ⟨0, _⟩ => show win1_6.index t (0 : Fin 2) * 96 + 1 * k.val = k.val; rw [e0]; omega
  | ⟨1, _⟩ => show win1_6.index t (1 : Fin 2) * 128 + 1 * q.val = q.val; rw [e1]; omega

/-- The second bias row's one block is the row. -/
theorem bBlock_apply (c : Dev nD) (t : Fin cfg1.N) (u : Fin 1) (q : Fin 128) :
    (iblk1 V c 7 t : Vec Ideal S1x128 .f32) (ix2 u q) = (V c main_v67 : S1x128.Idx → Ideal .f32) (ix2 u q) := by
  obtain ⟨-, -, -, -, e0, e1⟩ := wholeBlocks t
  unfold iblk1
  rw [View.read_apply]
  show V c main_v67 _ = V c main_v67 _
  refine congrArg (V c main_v67) (funext fun a => Fin.ext ?_)
  match a with
  | ⟨0, _⟩ => show win1_7.index t (0 : Fin 2) * 1 + 1 * u.val = u.val; rw [e0]; omega
  | ⟨1, _⟩ => show win1_7.index t (1 : Fin 2) * 128 + 1 * q.val = q.val; rw [e1]; omega

/-- Entry (p, q) of what point `t` computes is entry (2000 t + p, q) of the joined branches of the whole arrays. -/
theorem entry_eq (c : Dev nD) (t : Fin cfg1.N) (p : Fin 2000) (q : Fin 128) :
    k1_pay1 (F := Ideal) (k1_pay3 (iblk1 V c 1 t) (iblk1 V c 6 t) (iblk1 V c 2 t) (iblk1 V c 7 t))
        (k1_pay4 (iblk1 V c 0 t) (iblk1 V c 1 t) (iblk1 V c 3 t) (iblk1 V c 5 t) (iblk1 V c 4 t))
        (k1_pay5 (iblk1 V c 1 t) (iblk1 V c 6 t) (iblk1 V c 2 t) (iblk1 V c 7 t)) (ix2 p q)
      = Cert.Spec.finOf (V c main_v27) (V c main_v5_0) (V c main_v65) (V c main_arg6) (Cert.Spec.rowVec (V c main_v66))
          (V c main_arg8) (V c main_arg10) (Cert.Spec.rowVec (V c main_v67)) (ix2 ⟨t.val * 2000 + p.val, rowLt t p⟩ q) := by
  refine (block_apply (iblk1 V c 0 t) (iblk1 V c 1 t) (iblk1 V c 2 t) (iblk1 V c 3 t) (iblk1 V c 5 t) (iblk1 V c 6 t)
    (iblk1 V c 4 t) (iblk1 V c 7 t) p q).trans ?_
  simp only [meanBlock_apply, xhBlock_apply, propBlock_apply, wlBlock_apply, blBlock_apply, wrBlock_apply, wvBlock_apply, bBlock_apply]
  rfl

/-- What point `t` writes back is block `t` of the joined branches of the whole arrays. -/
theorem flushed_eq (c : Dev nD) (t : Fin cfg1.N) :
    (dat1 V c).flushed 8 t = ((cfg1.win 8).blk t).view.read (Elt Ideal)
      (Cert.Spec.finOf (V c main_v27) (V c main_v5_0) (V c main_v65) (V c main_arg6) (Cert.Spec.rowVec (V c main_v66))
        (V c main_arg8) (V c main_arg10) (Cert.Spec.rowVec (V c main_v67))) := by
  show (cfg1.win 8).cut (grid1.coords t) ((dat1 V c).after 8 t) = _
  rw [after1_8]
  unfold out1_8
  rw [View.canon_unit_zero zeroOffsets]
  simp only [View.ld_unit_zero (S := S2000x96) zeroOffsets, View.ld_unit_zero (S := S96x128) zeroOffsets,
    View.ld_unit_zero (S := S1x128) zeroOffsets, View.ld_unit_zero (S := S2000x128) zeroOffsets]
  refine funext fun (y : S2000x128.Idx) => ?_
  obtain ⟨p, q, rfl⟩ : ∃ (p : Fin 2000) (q : Fin 128), y = ix2 p q := ⟨y 0, y 1, eq_ix2 y⟩
  obtain ⟨-, -, -, e0, e1⟩ := rowBlocks t
  have hemb : ((cfg1.win 8).blk t).view.emb (ix2 p q) = (ix2 ⟨t.val * 2000 + p.val, rowLt t p⟩ q : S50000x128.Idx) := by
    refine funext fun a => Fin.ext ?_
    match a with
    | ⟨0, _⟩ => show win1_8.index t (0 : Fin 2) * 2000 + 1 * p.val = t.val * 2000 + p.val; rw [e0]; omega
    | ⟨1, _⟩ => show win1_8.index t (1 : Fin 2) * 128 + 1 * q.val = q.val; rw [e1]; omega
  rw [View.read_apply, hemb]
  exact entry_eq V c t p q

/-- An entry is in point `t`'s block iff each coordinate is in the block's range on its axis. -/
theorem mem_block (t : Fin cfg1.N) (i : S50000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole main_v68).slice (win1_8.rect t)).set ↔ _
  rw [View.set_slice_whole, Rect.mem_set_unit]
  exact Iff.rfl

/-- Row `r` lies in the block of point `r / 2000`: the 25 row blocks tile the 50000 rows. -/
theorem covered (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by rw [show cfg1.N = 25 from N_1]; omega⟩, rfl⟩
  obtain ⟨-, -, -, e0, e1⟩ := rowBlocks t
  refine ⟨t, flush1_8 t, ?_⟩
  rw [mem_block]
  intro a
  match a with
  | ⟨0, _⟩ =>
    show win1_8.index t (0 : Fin 2) * 2000 ≤ (i 0).val ∧ (i 0).val < win1_8.index t (0 : Fin 2) * 2000 + 2000
    rw [e0, ht]; omega
  | ⟨1, _⟩ =>
    show win1_8.index t (1 : Fin 2) * 128 ≤ (i 1).val ∧ (i 1).val < win1_8.index t (1 : Fin 2) * 128 + 128
    rw [e1]; omega

end Finalize

/-- After the region, result window 8's array is the two branches joined, of the arrays the region found. -/
theorem arr1_8 (c : Dev nD) :
    (dat1 V c).arrAt 8 cfg1.N
      = Cert.Spec.finOf (V c main_v27) (V c main_v5_0) (V c main_v65) (V c main_arg6) (Cert.Spec.rowVec (V c main_v66))
          (V c main_arg8) (V c main_arg10) (Cert.Spec.rowVec (V c main_v67)) :=
  (dat1 V c).arrAt_eq_of_cover 8 _ (fun t _ => Finalize.flushed_eq V c t) Finalize.covered

end Cert.KernelIdeal.Val

end
-- ==== Proof.KernelHost.lean ====
/-
  What the host operations around the two regions leave in the buffers the regions read.

  Before the first region only reshapes run: the arguments are as launched and the bias is its own row.  Between the
  regions the edge part runs on the first region's results: mean and prop are `meanOf` / `propOf` of those results and
  the edge data, xh is untouched, and the two output biases are reshaped to rows.
-/
import proofs.«181693_j44916767981746_1_alg».proof.Proof.Gen.KernelIdeal.Frame
import proofs.«181693_j44916767981746_1_alg».proof.Proof.Spec
import Idealize.ShloMosaic.Lib.StableHlo.Run
set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The kernel program's witnesses of the edge part's shape relations. -/
theorem hK : Cert.Spec.ChainFacts where
  sl0 := Cert.KernelIdeal.Gen.slices_S2x800000_S1x800000_0_0
  sl1 := Cert.KernelIdeal.Gen.slices_S2x800000_S1x800000_1_0
  sc := Cert.KernelIdeal.Gen.shapeCasts_S1x800000_S800000
  b0E := Cert.KernelIdeal.Gen.bcast_S_S800000
  bEE1 := Cert.KernelIdeal.Gen.bcast_S800000_S800000x1_0
  bE1EH := Cert.KernelIdeal.Gen.bcast_S800000x1_S800000x96_0_1
  b0NH := Cert.KernelIdeal.Gen.bcast_S_S50000x96
  b0N := Cert.KernelIdeal.Gen.bcast_S_S50000
  bNN1 := Cert.KernelIdeal.Gen.bcast_S50000_S50000x1_0
  bN1NH := Cert.KernelIdeal.Gen.bcast_S50000x1_S50000x96_0_1
  bE1EC := Cert.KernelIdeal.Gen.bcast_S800000x1_S800000x128_0_1
  b0NC := Cert.KernelIdeal.Gen.bcast_S_S50000x128
  gH := Cert.KernelIdeal.Gen.gather_S50000x96_S800000x1_S800000x96_1_0_n_n_0_1_196_wf
  sH := Cert.KernelIdeal.Gen.scatter_S50000x96_S800000x1_S800000x96_1_0_0_1_wf
  s1 := Cert.KernelIdeal.Gen.scatter_S50000_S800000x1_S800000_n_0_0_1_wf
  g1 := Cert.KernelIdeal.Gen.gather_S50000_S800000x1_S800000_n_0_n_n_0_1_1_wf
  gC := Cert.KernelIdeal.Gen.gather_S50000x128_S800000x1_S800000x128_1_0_n_n_0_1_1128_wf
  sC := Cert.KernelIdeal.Gen.scatter_S50000x128_S800000x1_S800000x128_1_0_0_1_wf

/-! ## Buffers a stretch of host operations does not write -/

/-- A buffer that is the result of none of the listed operations holds after them what it held before: each
    operation's result buffer is a literal reference, told apart from the given one by comparing references. -/
local macro "not_written " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## At the first region's entry -/

theorem V1_arg1 (c : Dev nD) : V1 m ρ c main_arg1 = m ((c : Thread nD τ).loc main_arg1) :=
  calc V1 m ρ c main_arg1
    _ = W0 m ρ c (Proc.devRef .tc main_arg1) := by not_written hostOps0
    _ = m ((c : Thread nD τ).loc main_arg1) := rfl
theorem V1_arg4 (c : Dev nD) : V1 m ρ c main_arg4 = m ((c : Thread nD τ).loc main_arg4) :=
  calc V1 m ρ c main_arg4
    _ = W0 m ρ c (Proc.devRef .tc main_arg4) := by not_written hostOps0
    _ = m ((c : Thread nD τ).loc main_arg4) := rfl
theorem V1_arg9 (c : Dev nD) : V1 m ρ c main_arg9 = m ((c : Thread nD τ).loc main_arg9) :=
  calc V1 m ρ c main_arg9
    _ = W0 m ρ c (Proc.devRef .tc main_arg9) := by not_written hostOps0
    _ = m ((c : Thread nD τ).loc main_arg9) := rfl
/-- The bias as a 1 × 96 array. -/
theorem V1_v4 (c : Dev nD) :
    V1 m ρ c main_v4 = shapeCast S1x96 (m ((c : Thread nD τ).loc main_arg5)) shapeCasts_S96_S1x96 := by
  show StableHlo.after hostOps0 (W0 m ρ c) (Proc.devRef .tc main_v4) = _
  after_results
  rfl

/-! ## The edge data the second stretch reads

The source and destination vectors are rows 0 and 1 of the edge array, cut out and flattened before the first region;
the first region has none of them (nor the edge weights) among its arrays, so they are the same at its exit. -/

theorem W1_v1 (c : Dev nD) :
    W1 m ρ c (Proc.devRef .tc main_v1) = Cert.Spec.srcOf hK (m ((c : Thread nD τ).loc main_arg2)) := by
  show StableHlo.after hostOps0 (W0 m ρ c) (Proc.devRef .tc main_v1) = _
  after_results
  rfl
theorem W1_v3 (c : Dev nD) :
    W1 m ρ c (Proc.devRef .tc main_v3) = Cert.Spec.dstOf hK (m ((c : Thread nD τ).loc main_arg2)) := by
  show StableHlo.after hostOps0 (W0 m ρ c) (Proc.devRef .tc main_v3) = _
  after_results
  rfl
theorem W2_v1 (c : Dev nD) :
    W2 m ρ c (Proc.devRef .tc main_v1) = Cert.Spec.srcOf hK (m ((c : Thread nD τ).loc main_arg2)) :=
  (W2_of_ne m ρ c main_v1 (by decide)).trans (W1_v1 m ρ c)
theorem W2_v3 (c : Dev nD) :
    W2 m ρ c (Proc.devRef .tc main_v3) = Cert.Spec.dstOf hK (m ((c : Thread nD τ).loc main_arg2)) :=
  (W2_of_ne m ρ c main_v3 (by decide)).trans (W1_v3 m ρ c)
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by not_written hostOps0
    _ = m ((c : Thread nD τ).loc main_arg3) := rfl

/-! ## The stretches between the regions, from any contents

Each lemma reads one buffer after a stretch of operations started from arbitrary contents `X`: the operations'
functions composed, over `X` at the buffers the stretch reads from outside.  Once the source and destination vectors
are named, the composition is the edge part's function, operation for operation. -/

/-- mean: the weighted source rows summed into their destination rows, over max(in-degree, 1). -/
theorem after1_v27 (X : Valuation τ sig (Elt Ideal)) (ei : IVec Cert.Spec.s2E 32)
    (h1 : X (Proc.devRef .tc main_v1) = Cert.Spec.srcOf hK ei) (h3 : X (Proc.devRef .tc main_v3) = Cert.Spec.dstOf hK ei) :
    StableHlo.after hostOps1 X (Proc.devRef .tc main_v27)
      = Cert.Spec.meanOf hK (X (Proc.devRef .tc main_v5_0)) ei (X (Proc.devRef .tc main_arg3)) := by
  after_results_simp
  rw [h1, h3]
  unfold Cert.Spec.meanOf Cert.Spec.col Cert.Spec.wrap Cert.Spec.sdH Cert.Spec.gdH Cert.Spec.sd1
    scatter_S50000x96_S800000x1_S800000x96_1_0_0_1 gather_S50000x96_S800000x1_S800000x96_1_0_n_n_0_1_196
    scatter_S50000_S800000x1_S800000_n_0_0_1
  rfl

/-- The weighted in-degree: the edge weights summed into their destination nodes. -/
theorem after1_v30 (X : Valuation τ sig (Elt Ideal)) (ei : IVec Cert.Spec.s2E 32)
    (h3 : X (Proc.devRef .tc main_v3) = Cert.Spec.dstOf hK ei) :
    StableHlo.after hostOps1 X (Proc.devRef .tc main_v30) = Cert.Spec.degOf hK ei (X (Proc.devRef .tc main_arg3)) := by
  after_results_simp
  rw [h3]
  unfold Cert.Spec.degOf Cert.Spec.col Cert.Spec.sd1 scatter_S50000_S800000x1_S800000_n_0_0_1
  rfl
/-- Where the degree is positive. -/
theorem after1_v32 (X : Valuation τ sig (Elt Ideal)) :
    StableHlo.after hostOps1 X (Proc.devRef .tc main_v32)
      = cmpf .ogt (StableHlo.after hostOps1 X (Proc.devRef .tc main_v30))
          (broadcastInDim S50000 ![] bcast_S_S50000 (constant (F := Ideal) S_ .f32 0x00000000#32)) := by
  after_results_simp
/-- The inverse square root of the degree, the degree kept off zero. -/
theorem after1_v35 (X : Valuation τ sig (Elt Ideal)) :
    StableHlo.after hostOps1 X (Proc.devRef .tc main_v35)
      = Host.rsqrt (maximumf (StableHlo.after hostOps1 X (Proc.devRef .tc main_v30))
          (broadcastInDim S50000 ![] bcast_S_S50000 (constant (F := Ideal) S_ .f32 0x0DA24260#32))) := by
  after_results_simp
/-- The literal 0 the selection falls back to. -/
theorem after1_cst7 (X : Valuation τ sig (Elt Ideal)) :
    StableHlo.after hostOps1 X (Proc.devRef .tc main_cst_7) = constant (F := Ideal) S_ .f32 0x00000000#32 := by
  after_results_simp
/-- The selection: the second operand where the mask holds, the third one's value at every node elsewhere. -/
theorem after1_1_v36_sel (Y : Valuation τ sig (Elt Ideal)) :
    StableHlo.after hostOps1_1 Y (Proc.devRef .tc main_v36)
      = select (Y (Proc.devRef .tc main_v32)) (Y (Proc.devRef .tc main_v35))
          (broadcastInDim S50000 ![] bcast_S_S50000 (id (Y (Proc.devRef .tc main_cst_7)))) := by
  after_results_simp
  rfl
/-- dinv: degree^(-1/2) where the degree is positive, 0 elsewhere. -/
theorem after1_1_v36 (X : Valuation τ sig (Elt Ideal)) (ei : IVec Cert.Spec.s2E 32)
    (h3 : X (Proc.devRef .tc main_v3) = Cert.Spec.dstOf hK ei) :
    StableHlo.after hostOps1_1 (StableHlo.after hostOps1 X) (Proc.devRef .tc main_v36)
      = Cert.Spec.dinvOf hK ei (X (Proc.devRef .tc main_arg3)) := by
  rw [after1_1_v36_sel, after1_v32, after1_v35, after1_cst7, after1_v30 X ei h3]
  rfl

/-- prop: the source rows, each scaled by its edge's symmetric normalisation, summed into their destination rows. -/
theorem after1_2_v65 (Y : Valuation τ sig (Elt Ideal)) (ei : IVec Cert.Spec.s2E 32) (ew : FVec Ideal Cert.Spec.sE .f32)
    (h1 : Y (Proc.devRef .tc main_v1) = Cert.Spec.srcOf hK ei) (h3 : Y (Proc.devRef .tc main_v3) = Cert.Spec.dstOf hK ei)
    (hd : Y (Proc.devRef .tc main_v36) = Cert.Spec.dinvOf hK ei ew) (hw : Y (Proc.devRef .tc main_arg3) = ew) :
    StableHlo.after hostOps1_2 Y (Proc.devRef .tc main_v65)
      = Cert.Spec.propOf hK (Y (Proc.devRef .tc main_v5_1)) ei ew := by
  after_results_simp
  rw [h1, h3, hd, hw]
  unfold Cert.Spec.propOf Cert.Spec.normOf Cert.Spec.col Cert.Spec.wrap Cert.Spec.sdC Cert.Spec.gdC Cert.Spec.gd1
    scatter_S50000x128_S800000x1_S800000x128_1_0_0_1 gather_S50000x128_S800000x1_S800000x128_1_0_n_n_0_1_1128
    gather_S50000_S800000x1_S800000_n_0_n_n_0_1_1
  rfl

/-- The two output biases as 1 × 128 arrays. -/
theorem after1_2_v66 (Y : Valuation τ sig (Elt Ideal)) :
    StableHlo.after hostOps1_2 Y (Proc.devRef .tc main_v66)
      = shapeCast S1x128 (Y (Proc.devRef .tc main_arg7)) shapeCasts_S128_S1x128 := by
  after_results_simp
  rfl
theorem after1_2_v67 (Y : Valuation τ sig (Elt Ideal)) :
    StableHlo.after hostOps1_2 Y (Proc.devRef .tc main_v67)
      = shapeCast S1x128 (Y (Proc.devRef .tc main_arg11)) shapeCasts_S128_S1x128 := by
  after_results_simp
  rfl

/-! ## At the second region's entry -/

/-- mean is the edge part's mean aggregation of the first region's first result. -/
theorem V5_mean (c : Dev nD) :
    V5 m ρ c main_v27 = Cert.Spec.meanOf hK (W2 m ρ c (Proc.devRef .tc main_v5_0))
      (m ((c : Thread nD τ).loc main_arg2)) (m ((c : Thread nD τ).loc main_arg3)) :=
  calc V5 m ρ c main_v27
    _ = W4 m ρ c (Proc.devRef .tc main_v27) := by not_written hostOps1_2
    _ = W3 m ρ c (Proc.devRef .tc main_v27) := by not_written hostOps1_1
    _ = Cert.Spec.meanOf hK (W2 m ρ c (Proc.devRef .tc main_v5_0)) (m ((c : Thread nD τ).loc main_arg2))
          (W2 m ρ c (Proc.devRef .tc main_arg3)) := after1_v27 (W2 m ρ c) _ (W2_v1 m ρ c) (W2_v3 m ρ c)
    _ = _ := congrArg (Cert.Spec.meanOf hK _ _) (W2_arg3 m ρ c)
/-- The first region's first result is still there. -/
theorem V5_xh (c : Dev nD) : V5 m ρ c main_v5_0 = W2 m ρ c (Proc.devRef .tc main_v5_0) :=
  calc V5 m ρ c main_v5_0
    _ = W4 m ρ c (Proc.devRef .tc main_v5_0) := by not_written hostOps1_2
    _ = W3 m ρ c (Proc.devRef .tc main_v5_0) := by not_written hostOps1_1
    _ = W2 m ρ c (Proc.devRef .tc main_v5_0) := by not_written hostOps1
/-- prop is the edge part's normalised propagation of the first region's second result. -/
theorem V5_prop (c : Dev nD) :
    V5 m ρ c main_v65 = Cert.Spec.propOf hK (W2 m ρ c (Proc.devRef .tc main_v5_1))
      (m ((c : Thread nD τ).loc main_arg2)) (m ((c : Thread nD τ).loc main_arg3)) := by
  have h1 : W4 m ρ c (Proc.devRef .tc main_v1) = Cert.Spec.srcOf hK (m ((c : Thread nD τ).loc main_arg2)) :=
    calc W4 m ρ c (Proc.devRef .tc main_v1)
    _ = W3 m ρ c (Proc.devRef .tc main_v1) := by not_written hostOps1_1
    _ = W2 m ρ c (Proc.devRef .tc main_v1) := by not_written hostOps1
    _ = _ := W2_v1 m ρ c
  have h3 : W4 m ρ c (Proc.devRef .tc main_v3) = Cert.Spec.dstOf hK (m ((c : Thread nD τ).loc main_arg2)) :=
    calc W4 m ρ c (Proc.devRef .tc main_v3)
    _ = W3 m ρ c (Proc.devRef .tc main_v3) := by not_written hostOps1_1
    _ = W2 m ρ c (Proc.devRef .tc main_v3) := by not_written hostOps1
    _ = _ := W2_v3 m ρ c
  have hw : W4 m ρ c (Proc.devRef .tc main_arg3) = m ((c : Thread nD τ).loc main_arg3) :=
    calc W4 m ρ c (Proc.devRef .tc main_arg3)
    _ = W3 m ρ c (Proc.devRef .tc main_arg3) := by not_written hostOps1_1
    _ = W2 m ρ c (Proc.devRef .tc main_arg3) := by not_written hostOps1
    _ = _ := W2_arg3 m ρ c
  have hd : W4 m ρ c (Proc.devRef .tc main_v36)
      = Cert.Spec.dinvOf hK (m ((c : Thread nD τ).loc main_arg2)) (m ((c : Thread nD τ).loc main_arg3)) :=
    (after1_1_v36 (W2 m ρ c) _ (W2_v3 m ρ c)).trans (congrArg (Cert.Spec.dinvOf hK _) (W2_arg3 m ρ c))
  have hx : W4 m ρ c (Proc.devRef .tc main_v5_1) = W2 m ρ c (Proc.devRef .tc main_v5_1) :=
    calc W4 m ρ c (Proc.devRef .tc main_v5_1)
    _ = W3 m ρ c (Proc.devRef .tc main_v5_1) := by not_written hostOps1_1
    _ = W2 m ρ c (Proc.devRef .tc main_v5_1) := by not_written hostOps1
  exact (after1_2_v65 (W4 m ρ c) _ _ h1 h3 hd hw).trans (congrArg (fun z => Cert.Spec.propOf hK z _ _) hx)
theorem V5_arg6 (c : Dev nD) : V5 m ρ c main_arg6 = m ((c : Thread nD τ).loc main_arg6) :=
  calc V5 m ρ c main_arg6
    _ = W4 m ρ c (Proc.devRef .tc main_arg6) := by not_written hostOps1_2
    _ = W3 m ρ c (Proc.devRef .tc main_arg6) := by not_written hostOps1_1
    _ = W2 m ρ c (Proc.devRef .tc main_arg6) := by not_written hostOps1
    _ = W1 m ρ c (Proc.devRef .tc main_arg6) := W2_of_ne m ρ c main_arg6 (by decide)
    _ = W0 m ρ c (Proc.devRef .tc main_arg6) := by not_written hostOps0
    _ = m ((c : Thread nD τ).loc main_arg6) := rfl
theorem V5_arg8 (c : Dev nD) : V5 m ρ c main_arg8 = m ((c : Thread nD τ).loc main_arg8) :=
  calc V5 m ρ c main_arg8
    _ = W4 m ρ c (Proc.devRef .tc main_arg8) := by not_written hostOps1_2
    _ = W3 m ρ c (Proc.devRef .tc main_arg8) := by not_written hostOps1_1
    _ = W2 m ρ c (Proc.devRef .tc main_arg8) := by not_written hostOps1
    _ = W1 m ρ c (Proc.devRef .tc main_arg8) := W2_of_ne m ρ c main_arg8 (by decide)
    _ = W0 m ρ c (Proc.devRef .tc main_arg8) := by not_written hostOps0
    _ = m ((c : Thread nD τ).loc main_arg8) := rfl
theorem V5_arg10 (c : Dev nD) : V5 m ρ c main_arg10 = m ((c : Thread nD τ).loc main_arg10) :=
  calc V5 m ρ c main_arg10
    _ = W4 m ρ c (Proc.devRef .tc main_arg10) := by not_written hostOps1_2
    _ = W3 m ρ c (Proc.devRef .tc main_arg10) := by not_written hostOps1_1
    _ = W2 m ρ c (Proc.devRef .tc main_arg10) := by not_written hostOps1
    _ = W1 m ρ c (Proc.devRef .tc main_arg10) := W2_of_ne m ρ c main_arg10 (by decide)
    _ = W0 m ρ c (Proc.devRef .tc main_arg10) := by not_written hostOps0
    _ = m ((c : Thread nD τ).loc main_arg10) := rfl
theorem V5_v66 (c : Dev nD) :
    V5 m ρ c main_v66 = shapeCast S1x128 (m ((c : Thread nD τ).loc main_arg7)) shapeCasts_S128_S1x128 := by
  have e : W4 m ρ c (Proc.devRef .tc main_arg7) = m ((c : Thread nD τ).loc main_arg7) :=
    calc W4 m ρ c (Proc.devRef .tc main_arg7)
    _ = W3 m ρ c (Proc.devRef .tc main_arg7) := by not_written hostOps1_1
    _ = W2 m ρ c (Proc.devRef .tc main_arg7) := by not_written hostOps1
    _ = W1 m ρ c (Proc.devRef .tc main_arg7) := W2_of_ne m ρ c main_arg7 (by decide)
    _ = W0 m ρ c (Proc.devRef .tc main_arg7) := by not_written hostOps0
    _ = m ((c : Thread nD τ).loc main_arg7) := rfl
  exact (after1_2_v66 (W4 m ρ c)).trans (congrArg (fun z => shapeCast S1x128 z shapeCasts_S128_S1x128) e)
theorem V5_v67 (c : Dev nD) :
    V5 m ρ c main_v67 = shapeCast S1x128 (m ((c : Thread nD τ).loc main_arg11)) shapeCasts_S128_S1x128 := by
  have e : W4 m ρ c (Proc.devRef .tc main_arg11) = m ((c : Thread nD τ).loc main_arg11) :=
    calc W4 m ρ c (Proc.devRef .tc main_arg11)
    _ = W3 m ρ c (Proc.devRef .tc main_arg11) := by not_written hostOps1_1
    _ = W2 m ρ c (Proc.devRef .tc main_arg11) := by not_written hostOps1
    _ = W1 m ρ c (Proc.devRef .tc main_arg11) := W2_of_ne m ρ c main_arg11 (by decide)
    _ = W0 m ρ c (Proc.devRef .tc main_arg11) := by not_written hostOps0
    _ = m ((c : Thread nD τ).loc main_arg11) := rfl
  exact (after1_2_v67 (W4 m ρ c)).trans (congrArg (fun z => shapeCast S1x128 z shapeCasts_S128_S1x128) e)

end Cert.KernelIdeal.Val

end
-- ==== Proof.KernelValue.lean ====
/-
  The kernel program's result, whole: after the two regions and the edge part between them, the result buffer holds the
  cell's value of the arguments as launched.

  The second region's result array is the joined branches of what it found (mean, xh, prop, the weights); mean and prop
  are the edge part of the first region's results; those are x · W + b and its product with the second weight.
-/
import proofs.«181693_j44916767981746_1_alg».proof.Proof.KernelRun
import proofs.«181693_j44916767981746_1_alg».proof.Proof.KernelRegion0
import proofs.«181693_j44916767981746_1_alg».proof.Proof.KernelRegion1
import proofs.«181693_j44916767981746_1_alg».proof.Proof.KernelHost
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- A vector laid out as the one row of a 1 × n array, read back along that row, is the vector. -/
theorem rowVec_shapeCast {n : Nat} (b : FVec Ideal ⟨1, ![n]⟩ .f32) (h : (⟨1, ![n]⟩ : Shape).ShapeCasts ⟨2, ![1, n]⟩) :
    Cert.Spec.rowVec (shapeCast ⟨2, ![1, n]⟩ b h) = b := by
  funext q
  obtain ⟨i, rfl⟩ : ∃ i : Fin n, q = ix1 i := ⟨q 0, eq_ix1 q⟩
  exact shapeCast_a_1a_apply b h (0 : Fin 1) i

/-- The result buffer at the last boundary is the cell's value of the launch arguments. -/
theorem value (c : Dev nD) :
    W6 m ρ c (Proc.devRef .tc main_v68) = Cert.Spec.result hK (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) := by
  have h8 : W6 m ρ c (Proc.devRef .tc main_v68) = (dat1 (V5 m ρ) c).arrAt 8 cfg1.N := W6_arr m ρ c 8
  have h4 : W2 m ρ c (Proc.devRef .tc main_v5_0) = (dat0 (V1 m ρ) c).arrAt 4 cfg0.N := W2_arr m ρ c 4
  have h5 : W2 m ρ c (Proc.devRef .tc main_v5_1) = (dat0 (V1 m ρ) c).arrAt 5 cfg0.N := W2_arr m ρ c 5
  -- the second region's result, of what that region found
  rw [h8, arr1_8 (V5 m ρ) c]
  -- what it found: the edge part of the first region's results, and the weights as launched
  rw [V5_mean m ρ c, V5_xh m ρ c, V5_prop m ρ c, V5_arg6 m ρ c, V5_arg8 m ρ c, V5_arg10 m ρ c, V5_v66 m ρ c, V5_v67 m ρ c]
  -- the first region's results, of the arguments as launched
  rw [h4, h5, arr0_4 (V1 m ρ) c, arr0_5 (V1 m ρ) c, V1_arg1 m ρ c, V1_arg4 m ρ c, V1_arg9 m ρ c, V1_v4 m ρ c]
  rw [rowVec_shapeCast, rowVec_shapeCast, rowVec_shapeCast]
  rfl

/-- The run with the result named: every weakly fair execution terminates, the result buffer at the cell's value, the
    arguments as launched. -/
theorem run : θ_run defs (onTc (τ := τ) (main (F := Ideal))) ⟨m, fun _ => 0, ρ⟩ (fun r => ∀ c : Dev nD,
      r.2.mem ((c.tc : Thread nD τ).loc main_v68) = Cert.Spec.result hK (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (value m ρ c), (h c).2⟩) (run_named (F := Ideal) m ρ)

end Cert.KernelIdeal.Val

end
-- ==== Proof.RefOps.lean ====
import proofs.«181693_j44916767981746_1_alg».proof.ReferenceIdeal
import proofs.«181693_j44916767981746_1_alg».proof.Proof.Gen.ReferenceIdeal
import Idealize.ShloMosaic.Lib.StableHlo.Run

noncomputable section

namespace Cert.ReferenceIdeal.RefValue

open Idealize.ShloMosaic Idealize.SL.Sem
open Cert.ReferenceIdeal Cert.ReferenceIdeal.Gen

variable {F : FTy → Type} [FloatOps F]

/-- The reference's @main, straight-line. -/
abbrev ops : List (HloOp τ sig (Elt F)) :=
  [ StableHlo.unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg1 main_arg4 main_v4 ((fun l r => Host.dotGeneral dot_S50000x128_S128x96_S50000x96_1_0_0_1_n_n none l r) : (⟨S50000x128, .f32⟩ : BufTy).Contents (Elt F) → (⟨S128x96, .f32⟩ : BufTy).Contents (Elt F) → (⟨S50000x96, .f32⟩ : BufTy).Contents (Elt F)),
    StableHlo.unary main_arg5 main_v5 (broadcastInDim S1x96 ![1] bcast_S96_S1x96_1 : (⟨S96, .f32⟩ : BufTy).Contents (Elt F) → (⟨S1x96, .f32⟩ : BufTy).Contents (Elt F)),
    StableHlo.unary main_v5 main_v6 (broadcastInDim S50000x96 ![0, 1] bcast_S1x96_S50000x96_0_1 : (⟨S1x96, .f32⟩ : BufTy).Contents (Elt F) → (⟨S50000x96, .f32⟩ : BufTy).Contents (Elt F)),
    StableHlo.binary main_v4 main_v6 main_v7 (addf : (⟨S50000x96, .f32⟩ : BufTy).Contents (Elt F) → (⟨S50000x96, .f32⟩ : BufTy).Contents (Elt F) → (⟨S50000x96, .f32⟩ : BufTy).Contents (Elt F)),
    StableHlo.nullary main_c (constantI S_ 32 0#32),
    StableHlo.unary main_c main_v8 (broadcastInDim S800000 ![] bcast_S_S800000 : (⟨S_, .i32⟩ : BufTy).Contents (Elt F) → (⟨S800000, .i32⟩ : BufTy).Contents (Elt F)),
    StableHlo.binary main_v1 main_v8 main_v9 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v10 (broadcastInDim S800000 ![] bcast_S_S800000 : (⟨S_, .i32⟩ : BufTy).Contents (Elt F) → (⟨S800000, .i32⟩ : BufTy).Contents (Elt F)),
    StableHlo.binary main_v1 main_v10 main_v11 (addi : (⟨S800000, .i32⟩ : BufTy).Contents (Elt F) → (⟨S800000, .i32⟩ : BufTy).Contents (Elt F) → (⟨S800000, .i32⟩ : BufTy).Contents (Elt F)),
    StableHlo.ternary main_v9 main_v11 main_v1 main_v12 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v12 main_v13 (broadcastInDim S800000x1 ![0] bcast_S800000_S800000x1_0 : (⟨S800000, .i32⟩ : BufTy).Contents (Elt F) → (⟨S800000x1, .i32⟩ : BufTy).Contents (Elt F)),
    StableHlo.binary main_v7 main_v13 main_v14 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_arg3 main_v15 (broadcastInDim S800000x1 ![0] bcast_S800000_S800000x1_0 : (⟨S800000, .f32⟩ : BufTy).Contents (Elt F) → (⟨S800000x1, .f32⟩ : BufTy).Contents (Elt F)),
    StableHlo.unary main_v15 main_v16 (broadcastInDim S800000x96 ![0, 1] bcast_S800000x1_S800000x96_0_1 : (⟨S800000x1, .f32⟩ : BufTy).Contents (Elt F) → (⟨S800000x96, .f32⟩ : BufTy).Contents (Elt F)),
    StableHlo.binary main_v14 main_v16 main_v17 (mulf : (⟨S800000x96, .f32⟩ : BufTy).Contents (Elt F) → (⟨S800000x96, .f32⟩ : BufTy).Contents (Elt F) → (⟨S800000x96, .f32⟩ : BufTy).Contents (Elt F)),
    StableHlo.nullary main_cst (constant S_ .f32 0x00000000#32),
    StableHlo.unary main_cst main_v18 (broadcastInDim S50000x96 ![] bcast_S_S50000x96 : (⟨S_, .f32⟩ : BufTy).Contents (Elt F) → (⟨S50000x96, .f32⟩ : BufTy).Contents (Elt F)),
    StableHlo.unary main_v3 main_v19 (broadcastInDim S800000x1 ![0] bcast_S800000_S800000x1_0 : (⟨S800000, .i32⟩ : BufTy).Contents (Elt F) → (⟨S800000x1, .i32⟩ : BufTy).Contents (Elt F)),
    StableHlo.ternary main_v18 main_v19 main_v17 main_v20 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.nullary main_cst_1 (constant S_ .f32 0x3F800000#32),
    StableHlo.unary main_cst_1 main_v21 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v22 (broadcastInDim S50000 ![] bcast_S_S50000 : (⟨S_, .f32⟩ : BufTy).Contents (Elt F) → (⟨S50000, .f32⟩ : BufTy).Contents (Elt F)),
    StableHlo.unary main_v3 main_v23 (broadcastInDim S800000x1 ![0] bcast_S800000_S800000x1_0 : (⟨S800000, .i32⟩ : BufTy).Contents (Elt F) → (⟨S800000x1, .i32⟩ : BufTy).Contents (Elt F)),
    StableHlo.ternary main_v22 main_v23 main_v21 main_v24 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v25 (broadcastInDim S50000 ![] bcast_S_S50000 : (⟨S_, .f32⟩ : BufTy).Contents (Elt F) → (⟨S50000, .f32⟩ : BufTy).Contents (Elt F)),
    StableHlo.binary main_v24 main_v25 main_v26 (maximumf : (⟨S50000, .f32⟩ : BufTy).Contents (Elt F) → (⟨S50000, .f32⟩ : BufTy).Contents (Elt F) → (⟨S50000, .f32⟩ : BufTy).Contents (Elt F)),
    StableHlo.unary main_v26 main_v27 (broadcastInDim S50000x1 ![0] bcast_S50000_S50000x1_0 : (⟨S50000, .f32⟩ : BufTy).Contents (Elt F) → (⟨S50000x1, .f32⟩ : BufTy).Contents (Elt F)),
    StableHlo.unary main_v27 main_v28 (broadcastInDim S50000x96 ![0, 1] bcast_S50000x1_S50000x96_0_1 : (⟨S50000x1, .f32⟩ : BufTy).Contents (Elt F) → (⟨S50000x96, .f32⟩ : BufTy).Contents (Elt F)),
    StableHlo.binary main_v20 main_v28 main_v29 (Host.divf : (⟨S50000x96, .f32⟩ : BufTy).Contents (Elt F) → (⟨S50000x96, .f32⟩ : BufTy).Contents (Elt F) → (⟨S50000x96, .f32⟩ : BufTy).Contents (Elt F)),
    StableHlo.binary main_v29 main_arg6 main_v30 ((fun l r => Host.dotGeneral dot_S50000x96_S96x128_S50000x128_1_0_0_1_n_n none l r) : (⟨S50000x96, .f32⟩ : BufTy).Contents (Elt F) → (⟨S96x128, .f32⟩ : BufTy).Contents (Elt F) → (⟨S50000x128, .f32⟩ : BufTy).Contents (Elt F)),
    StableHlo.unary main_arg7 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S50000x128 ![0, 1] bcast_S1x128_S50000x128_0_1 : (⟨S1x128, .f32⟩ : BufTy).Contents (Elt F) → (⟨S50000x128, .f32⟩ : BufTy).Contents (Elt F)),
    StableHlo.binary main_v30 main_v32 main_v33 (addf : (⟨S50000x128, .f32⟩ : BufTy).Contents (Elt F) → (⟨S50000x128, .f32⟩ : BufTy).Contents (Elt F) → (⟨S50000x128, .f32⟩ : BufTy).Contents (Elt F)),
    StableHlo.binary main_v7 main_arg8 main_v34 ((fun l r => Host.dotGeneral dot_S50000x96_S96x128_S50000x128_1_0_0_1_n_n none l r) : (⟨S50000x96, .f32⟩ : BufTy).Contents (Elt F) → (⟨S96x128, .f32⟩ : BufTy).Contents (Elt F) → (⟨S50000x128, .f32⟩ : BufTy).Contents (Elt F)),
    StableHlo.binary main_v33 main_v34 main_v35 (addf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x00000000#32),
    StableHlo.unary main_cst_4 main_v36 (broadcastInDim S50000 ![] bcast_S_S50000 : (⟨S_, .f32⟩ : BufTy).Contents (Elt F) → (⟨S50000, .f32⟩ : BufTy).Contents (Elt F)),
    StableHlo.unary main_v3 main_v37 (broadcastInDim S800000x1 ![0] bcast_S800000_S800000x1_0 : (⟨S800000, .i32⟩ : BufTy).Contents (Elt F) → (⟨S800000x1, .i32⟩ : BufTy).Contents (Elt F)),
    StableHlo.ternary main_v36 main_v37 main_arg3 main_v38 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_5 (constant S_ .f32 0x00000000#32),
    StableHlo.unary main_cst_5 main_v39 (broadcastInDim S50000 ![] bcast_S_S50000 : (⟨S_, .f32⟩ : BufTy).Contents (Elt F) → (⟨S50000, .f32⟩ : BufTy).Contents (Elt F)),
    StableHlo.binary main_v38 main_v39 main_v40 (cmpf .ogt : (⟨S50000, .f32⟩ : BufTy).Contents (Elt F) → (⟨S50000, .f32⟩ : BufTy).Contents (Elt F) → (⟨S50000, .i1⟩ : BufTy).Contents (Elt F)),
    StableHlo.nullary main_cst_6 (constant S_ .f32 0x0DA24260#32),
    StableHlo.unary main_cst_6 main_v41 (broadcastInDim S50000 ![] bcast_S_S50000 : (⟨S_, .f32⟩ : BufTy).Contents (Elt F) → (⟨S50000, .f32⟩ : BufTy).Contents (Elt F)),
    StableHlo.binary main_v38 main_v41 main_v42 (maximumf : (⟨S50000, .f32⟩ : BufTy).Contents (Elt F) → (⟨S50000, .f32⟩ : BufTy).Contents (Elt F) → (⟨S50000, .f32⟩ : BufTy).Contents (Elt F)),
    StableHlo.unary main_v42 main_v43 (Host.rsqrt : (⟨S50000, .f32⟩ : BufTy).Contents (Elt F) → (⟨S50000, .f32⟩ : BufTy).Contents (Elt F)),
    StableHlo.nullary main_cst_7 (constant S_ .f32 0x00000000#32),
    StableHlo.TRef.unary (.of main_cst_7 : StableHlo.TRef sig ⟨S_, .f32⟩) main_call0.v0 id,
    StableHlo.TRef.unary main_call0.v0 main_call0.v1 (broadcastInDim S50000 ![] bcast_S_S50000),
    StableHlo.TRef.ternary (.of main_v40 : StableHlo.TRef sig ⟨S50000, .i1⟩) (.of main_v43 : StableHlo.TRef sig ⟨S50000, .f32⟩) main_call0.v1 main_call0.v2 select,
    StableHlo.nullary main_c_8 (constantI S_ 32 0#32),
    StableHlo.unary main_c_8 main_v45 (broadcastInDim S800000 ![] bcast_S_S800000 : (⟨S_, .i32⟩ : BufTy).Contents (Elt F) → (⟨S800000, .i32⟩ : BufTy).Contents (Elt F)),
    StableHlo.binary main_v1 main_v45 main_v46 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v47 (broadcastInDim S800000 ![] bcast_S_S800000 : (⟨S_, .i32⟩ : BufTy).Contents (Elt F) → (⟨S800000, .i32⟩ : BufTy).Contents (Elt F)),
    StableHlo.binary main_v1 main_v47 main_v48 (addi : (⟨S800000, .i32⟩ : BufTy).Contents (Elt F) → (⟨S800000, .i32⟩ : BufTy).Contents (Elt F) → (⟨S800000, .i32⟩ : BufTy).Contents (Elt F)),
    StableHlo.ternary main_v46 main_v48 main_v1 main_v49 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v49 main_v50 (broadcastInDim S800000x1 ![0] bcast_S800000_S800000x1_0 : (⟨S800000, .i32⟩ : BufTy).Contents (Elt F) → (⟨S800000x1, .i32⟩ : BufTy).Contents (Elt F)),
    StableHlo.binary main_v44 main_v50 main_v51 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v51 main_arg3 main_v52 (mulf : (⟨S800000, .f32⟩ : BufTy).Contents (Elt F) → (⟨S800000, .f32⟩ : BufTy).Contents (Elt F) → (⟨S800000, .f32⟩ : BufTy).Contents (Elt F)),
    StableHlo.nullary main_c_10 (constantI S_ 32 0#32),
    StableHlo.unary main_c_10 main_v53 (broadcastInDim S800000 ![] bcast_S_S800000 : (⟨S_, .i32⟩ : BufTy).Contents (Elt F) → (⟨S800000, .i32⟩ : BufTy).Contents (Elt F)),
    StableHlo.binary main_v3 main_v53 main_v54 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v55 (broadcastInDim S800000 ![] bcast_S_S800000 : (⟨S_, .i32⟩ : BufTy).Contents (Elt F) → (⟨S800000, .i32⟩ : BufTy).Contents (Elt F)),
    StableHlo.binary main_v3 main_v55 main_v56 (addi : (⟨S800000, .i32⟩ : BufTy).Contents (Elt F) → (⟨S800000, .i32⟩ : BufTy).Contents (Elt F) → (⟨S800000, .i32⟩ : BufTy).Contents (Elt F)),
    StableHlo.ternary main_v54 main_v56 main_v3 main_v57 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v57 main_v58 (broadcastInDim S800000x1 ![0] bcast_S800000_S800000x1_0 : (⟨S800000, .i32⟩ : BufTy).Contents (Elt F) → (⟨S800000x1, .i32⟩ : BufTy).Contents (Elt F)),
    StableHlo.binary main_v44 main_v58 main_v59 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v52 main_v59 main_v60 (mulf : (⟨S800000, .f32⟩ : BufTy).Contents (Elt F) → (⟨S800000, .f32⟩ : BufTy).Contents (Elt F) → (⟨S800000, .f32⟩ : BufTy).Contents (Elt F)),
    StableHlo.binary main_v7 main_arg9 main_v61 ((fun l r => Host.dotGeneral dot_S50000x96_S96x128_S50000x128_1_0_0_1_n_n none l r) : (⟨S50000x96, .f32⟩ : BufTy).Contents (Elt F) → (⟨S96x128, .f32⟩ : BufTy).Contents (Elt F) → (⟨S50000x128, .f32⟩ : BufTy).Contents (Elt F)),
    StableHlo.nullary main_c_12 (constantI S_ 32 0#32),
    StableHlo.unary main_c_12 main_v62 (broadcastInDim S800000 ![] bcast_S_S800000 : (⟨S_, .i32⟩ : BufTy).Contents (Elt F) → (⟨S800000, .i32⟩ : BufTy).Contents (Elt F)),
    StableHlo.binary main_v1 main_v62 main_v63 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v64 (broadcastInDim S800000 ![] bcast_S_S800000 : (⟨S_, .i32⟩ : BufTy).Contents (Elt F) → (⟨S800000, .i32⟩ : BufTy).Contents (Elt F)),
    StableHlo.binary main_v1 main_v64 main_v65 (addi : (⟨S800000, .i32⟩ : BufTy).Contents (Elt F) → (⟨S800000, .i32⟩ : BufTy).Contents (Elt F) → (⟨S800000, .i32⟩ : BufTy).Contents (Elt F)),
    StableHlo.ternary main_v63 main_v65 main_v1 main_v66 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v66 main_v67 (broadcastInDim S800000x1 ![0] bcast_S800000_S800000x1_0 : (⟨S800000, .i32⟩ : BufTy).Contents (Elt F) → (⟨S800000x1, .i32⟩ : BufTy).Contents (Elt F)),
    StableHlo.binary main_v61 main_v67 main_v68 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v60 main_v69 (broadcastInDim S800000x1 ![0] bcast_S800000_S800000x1_0 : (⟨S800000, .f32⟩ : BufTy).Contents (Elt F) → (⟨S800000x1, .f32⟩ : BufTy).Contents (Elt F)),
    StableHlo.unary main_v69 main_v70 (broadcastInDim S800000x128 ![0, 1] bcast_S800000x1_S800000x128_0_1 : (⟨S800000x1, .f32⟩ : BufTy).Contents (Elt F) → (⟨S800000x128, .f32⟩ : BufTy).Contents (Elt F)),
    StableHlo.binary main_v68 main_v70 main_v71 (mulf : (⟨S800000x128, .f32⟩ : BufTy).Contents (Elt F) → (⟨S800000x128, .f32⟩ : BufTy).Contents (Elt F) → (⟨S800000x128, .f32⟩ : BufTy).Contents (Elt F)),
    StableHlo.nullary main_cst_14 (constant S_ .f32 0x00000000#32),
    StableHlo.unary main_cst_14 main_v72 (broadcastInDim S50000x128 ![] bcast_S_S50000x128 : (⟨S_, .f32⟩ : BufTy).Contents (Elt F) → (⟨S50000x128, .f32⟩ : BufTy).Contents (Elt F)),
    StableHlo.unary main_v3 main_v73 (broadcastInDim S800000x1 ![0] bcast_S800000_S800000x1_0 : (⟨S800000, .i32⟩ : BufTy).Contents (Elt F) → (⟨S800000x1, .i32⟩ : BufTy).Contents (Elt F)),
    StableHlo.ternary main_v72 main_v73 main_v71 main_v74 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v7 main_arg10 main_v75 ((fun l r => Host.dotGeneral dot_S50000x96_S96x128_S50000x128_1_0_0_1_n_n none l r) : (⟨S50000x96, .f32⟩ : BufTy).Contents (Elt F) → (⟨S96x128, .f32⟩ : BufTy).Contents (Elt F) → (⟨S50000x128, .f32⟩ : BufTy).Contents (Elt F)),
    StableHlo.binary main_v74 main_v75 main_v76 (addf : (⟨S50000x128, .f32⟩ : BufTy).Contents (Elt F) → (⟨S50000x128, .f32⟩ : BufTy).Contents (Elt F) → (⟨S50000x128, .f32⟩ : BufTy).Contents (Elt F)),
    StableHlo.unary main_arg11 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S50000x128 ![0, 1] bcast_S1x128_S50000x128_0_1 : (⟨S1x128, .f32⟩ : BufTy).Contents (Elt F) → (⟨S50000x128, .f32⟩ : BufTy).Contents (Elt F)),
    StableHlo.binary main_v76 main_v78 main_v79 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v79 : StableHlo.TRef sig ⟨S50000x128, .f32⟩) main_call1.v0 main_call1.v1 maximumf,
    StableHlo.nullary main_cst_15 (constant S_ .f32 0x3C23D70A#32),
    StableHlo.TRef.nullary main_call2.cst (constant S_ .f32 0x00000000#32),
    StableHlo.TRef.unary main_call2.cst main_call2.v0 (broadcastInDim S50000x128 ![] bcast_S_S50000x128),
    StableHlo.TRef.binary (.of main_v35 : StableHlo.TRef sig ⟨S50000x128, .f32⟩) main_call2.v0 main_call2.v1 (cmpf .oge),
    StableHlo.TRef.unary (.of main_cst_15 : StableHlo.TRef sig ⟨S_, .f32⟩) main_call2.v2 id,
    StableHlo.TRef.unary main_call2.v2 main_call2.v3 (broadcastInDim S50000x128 ![] bcast_S_S50000x128),
    StableHlo.TRef.binary main_call2.v3 (.of main_v35 : StableHlo.TRef sig ⟨S50000x128, .f32⟩) main_call2.v4 mulf,
    StableHlo.TRef.ternary main_call2.v1 (.of main_v35 : StableHlo.TRef sig ⟨S50000x128, .f32⟩) main_call2.v4 main_call2.call0.v0 select,
    StableHlo.nullary main_cst_16 (constant S_ .f32 0x3C23D70A#32),
    StableHlo.TRef.nullary main_call3.cst (constant S_ .f32 0x00000000#32),
    StableHlo.TRef.unary main_call3.cst main_call3.v0 (broadcastInDim S50000x128 ![] bcast_S_S50000x128),
    StableHlo.TRef.binary (.of main_v80 : StableHlo.TRef sig ⟨S50000x128, .f32⟩) main_call3.v0 main_call3.v1 (cmpf .oge),
    StableHlo.TRef.unary (.of main_cst_16 : StableHlo.TRef sig ⟨S_, .f32⟩) main_call3.v2 id,
    StableHlo.TRef.unary main_call3.v2 main_call3.v3 (broadcastInDim S50000x128 ![] bcast_S_S50000x128),
    StableHlo.TRef.binary main_call3.v3 (.of main_v80 : StableHlo.TRef sig ⟨S50000x128, .f32⟩) main_call3.v4 mulf,
    StableHlo.TRef.ternary main_call3.v1 (.of main_v80 : StableHlo.TRef sig ⟨S50000x128, .f32⟩) main_call3.v4 main_call3.call0.v0 select,
    StableHlo.binary main_v81 main_v82 main_v83 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v83 : StableHlo.TRef sig ⟨S50000x128, .f32⟩) main_call4.v0 main_call4.v1 maximumf ]

end Cert.ReferenceIdeal.RefValue

end
-- ==== Proof.RefRun.lean ====
/-
  The reference runs: it is a straight line of host operations (its helper functions' bodies standing where they are
  called), so every weakly fair execution ends, nothing faulting, with each buffer at the operations' composed value.
-/
import proofs.«181693_j44916767981746_1_alg».proof.Proof.RefOps
import proofs.«181693_j44916767981746_1_alg».proof.Proof.Spec
import Idealize.ShloMosaic.Lib.StableHlo.Run

noncomputable section

namespace Cert.ReferenceIdeal.RefValue

open Idealize.ShloMosaic Idealize.ShloMosaic.TcCoe Idealize.SL.Sem Idealize.ShloMosaic.ValueIdx
open Cert.ReferenceIdeal Cert.ReferenceIdeal.Gen

open Idealize.ShloMosaic.StableHlo

variable {F : FTy → Type} [FloatOps F]

-- 122 binds are reassociated, and the rewriting descends once per statement of the chain
set_option maxRecDepth 16384 in
/-- @main is that straight line: its two windows in order, each helper function's body standing at its call over
    that call's record, and the sequencing reassociated (`bind_assoc`) with each body's closing `pure` absorbed
    (`pure_bind`); both sides are then the same chain of 122 `hlo` steps ending in the return. -/
theorem main_eq (c : Dev nD) : main (F := F) c = seq ops := by
  simp only [main, main_part0, main_part1, fn_where.body, fn_relu.body, fn_leaky_relu.body, fn_where_0.body,
    seq, bind_assoc, pure_bind]

/-- The signature scopes no buffer and no semaphore: there is no kernel. -/
theorem scopedRefs_eq : (Finset.univ.filter fun b : Ref sig .tc => b.isScoped) = ∅ := by
  decide
theorem scopedSems_eq : (Finset.univ.filter fun sm : SemLoc sig => sm.isScoped .tc) = ∅ := by
  decide

/-- Every operation touches TensorCore references only: over the literal list the property is a conjunction, one
    conjunct per operation, and each is its builder's own fact that its operands and its result are TensorCore
    references (a helper function's typed-reference operation is the plain builder of its arity underneath). -/
theorem ops_sub : (ops : List (HloOp τ sig (Elt F))).Forall fun op => op.bufs ⊆ tcRefs τ sig := by
  simp only [List.Forall, nullary_bufs_sub, unary_bufs_sub, binary_bufs_sub, ternary_bufs_sub, reshape_bufs_sub, and_self]

/-- Every weakly fair execution of the reference terminates, and every final state has each buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefArgs.lean ====
/-
  The reference writes no argument: every one of its operations writes the buffer of the value it defines, and none of
  those is an argument's buffer, so each argument holds at the end what it held at launch.  Unrolled over the literal
  list, each operation's result leaves a buffer it does not write, which is decided by comparing references.
-/
import proofs.«181693_j44916767981746_1_alg».proof.Proof.RefOps
import Idealize.ShloMosaic.PureOps.Ideal

noncomputable section

namespace Cert.ReferenceIdeal.RefValue

open Idealize.ShloMosaic Idealize.ShloMosaic.TcCoe Idealize.SL.Sem
open Cert.ReferenceIdeal Cert.ReferenceIdeal.Gen
open Idealize.ShloMosaic.StableHlo

set_option maxRecDepth 65536 in
set_option maxHeartbeats 1000000 in
theorem arg0_eq (V : Valuation τ sig (Elt Ideal)) : after ops V (main_arg0 : DevRef τ sig) = V (main_arg0 : DevRef τ sig) := by
  simp only [after_cons, after_nil]
  rfl

set_option maxRecDepth 65536 in
set_option maxHeartbeats 1000000 in
theorem arg1_eq (V : Valuation τ sig (Elt Ideal)) : after ops V (main_arg1 : DevRef τ sig) = V (main_arg1 : DevRef τ sig) := by
  simp only [after_cons, after_nil]
  rfl

set_option maxRecDepth 65536 in
set_option maxHeartbeats 1000000 in
theorem arg2_eq (V : Valuation τ sig (Elt Ideal)) : after ops V (main_arg2 : DevRef τ sig) = V (main_arg2 : DevRef τ sig) := by
  simp only [after_cons, after_nil]
  rfl

set_option maxRecDepth 65536 in
set_option maxHeartbeats 1000000 in
theorem arg3_eq (V : Valuation τ sig (Elt Ideal)) : after ops V (main_arg3 : DevRef τ sig) = V (main_arg3 : DevRef τ sig) := by
  simp only [after_cons, after_nil]
  rfl

set_option maxRecDepth 65536 in
set_option maxHeartbeats 1000000 in
theorem arg4_eq (V : Valuation τ sig (Elt Ideal)) : after ops V (main_arg4 : DevRef τ sig) = V (main_arg4 : DevRef τ sig) := by
  simp only [after_cons, after_nil]
  rfl

set_option maxRecDepth 65536 in
set_option maxHeartbeats 1000000 in
theorem arg5_eq (V : Valuation τ sig (Elt Ideal)) : after ops V (main_arg5 : DevRef τ sig) = V (main_arg5 : DevRef τ sig) := by
  simp only [after_cons, after_nil]
  rfl

set_option maxRecDepth 65536 in
set_option maxHeartbeats 1000000 in
theorem arg6_eq (V : Valuation τ sig (Elt Ideal)) : after ops V (main_arg6 : DevRef τ sig) = V (main_arg6 : DevRef τ sig) := by
  simp only [after_cons, after_nil]
  rfl

set_option maxRecDepth 65536 in
set_option maxHeartbeats 1000000 in
theorem arg7_eq (V : Valuation τ sig (Elt Ideal)) : after ops V (main_arg7 : DevRef τ sig) = V (main_arg7 : DevRef τ sig) := by
  simp only [after_cons, after_nil]
  rfl

set_option maxRecDepth 65536 in
set_option maxHeartbeats 1000000 in
theorem arg8_eq (V : Valuation τ sig (Elt Ideal)) : after ops V (main_arg8 : DevRef τ sig) = V (main_arg8 : DevRef τ sig) := by
  simp only [after_cons, after_nil]
  rfl

set_option maxRecDepth 65536 in
set_option maxHeartbeats 1000000 in
theorem arg9_eq (V : Valuation τ sig (Elt Ideal)) : after ops V (main_arg9 : DevRef τ sig) = V (main_arg9 : DevRef τ sig) := by
  simp only [after_cons, after_nil]
  rfl

set_option maxRecDepth 65536 in
set_option maxHeartbeats 1000000 in
theorem arg10_eq (V : Valuation τ sig (Elt Ideal)) : after ops V (main_arg10 : DevRef τ sig) = V (main_arg10 : DevRef τ sig) := by
  simp only [after_cons, after_nil]
  rfl

set_option maxRecDepth 65536 in
set_option maxHeartbeats 1000000 in
theorem arg11_eq (V : Valuation τ sig (Elt Ideal)) : after ops V (main_arg11 : DevRef τ sig) = V (main_arg11 : DevRef τ sig) := by
  simp only [after_cons, after_nil]
  rfl

/-- No operation writes an argument. -/
theorem arg_eq (V : Valuation τ sig (Elt Ideal)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig)
    ∧ after ops V (main_arg8 : DevRef τ sig) = V (main_arg8 : DevRef τ sig)
    ∧ after ops V (main_arg9 : DevRef τ sig) = V (main_arg9 : DevRef τ sig)
    ∧ after ops V (main_arg10 : DevRef τ sig) = V (main_arg10 : DevRef τ sig)
    ∧ after ops V (main_arg11 : DevRef τ sig) = V (main_arg11 : DevRef τ sig) :=
  ⟨arg0_eq V, arg1_eq V, arg2_eq V, arg3_eq V, arg4_eq V, arg5_eq V, arg6_eq V, arg7_eq V, arg8_eq V, arg9_eq V, arg10_eq V, arg11_eq V⟩

end Cert.ReferenceIdeal.RefValue

end
-- ==== Proof.RefValue.lean ====
/-
  What the reference computes: its result buffer ends at the cell's value of the arguments.

  Its three dense stages are whole-array matrix products with a row bias, which entry by entry are the sums the
  specification writes; its edge part is, operation for operation, `meanOf` / `propOf`; its closing leaky-ReLU / ReLU
  helper functions are the specification's scalar functions at each entry.

  The operations are read in four consecutive stretches.  The selection inside the inverse-root step and the closing
  activations are read from arbitrary contents, so that what they are applied to stays a name; the edge part is read
  once the source and destination vectors and the inverse roots are named.
-/
import proofs.«181693_j44916767981746_1_alg».proof.Proof.RefOps
import proofs.«181693_j44916767981746_1_alg».proof.Proof.Spec
import proofs.«181693_j44916767981746_1_alg».proof.Proof.LibPlainDot
import Idealize.ShloMosaic.Lib.StableHlo.Run
import Idealize.ShloMosaic.Lib.ValueLayout
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Gen

open Idealize.ShloMosaic.StableHlo

/-- The reference program's witnesses of the edge part's shape relations. -/
theorem hR : Cert.Spec.ChainFacts where
  sl0 := Cert.ReferenceIdeal.Gen.slices_S2x800000_S1x800000_0_0
  sl1 := Cert.ReferenceIdeal.Gen.slices_S2x800000_S1x800000_1_0
  sc := Cert.ReferenceIdeal.Gen.shapeCasts_S1x800000_S800000
  b0E := Cert.ReferenceIdeal.Gen.bcast_S_S800000
  bEE1 := Cert.ReferenceIdeal.Gen.bcast_S800000_S800000x1_0
  bE1EH := Cert.ReferenceIdeal.Gen.bcast_S800000x1_S800000x96_0_1
  b0NH := Cert.ReferenceIdeal.Gen.bcast_S_S50000x96
  b0N := Cert.ReferenceIdeal.Gen.bcast_S_S50000
  bNN1 := Cert.ReferenceIdeal.Gen.bcast_S50000_S50000x1_0
  bN1NH := Cert.ReferenceIdeal.Gen.bcast_S50000x1_S50000x96_0_1
  bE1EC := Cert.ReferenceIdeal.Gen.bcast_S800000x1_S800000x128_0_1
  b0NC := Cert.ReferenceIdeal.Gen.bcast_S_S50000x128
  gH := Cert.ReferenceIdeal.Gen.gather_S50000x96_S800000x1_S800000x96_1_0_n_n_0_1_196_wf
  sH := Cert.ReferenceIdeal.Gen.scatter_S50000x96_S800000x1_S800000x96_1_0_0_1_wf
  s1 := Cert.ReferenceIdeal.Gen.scatter_S50000_S800000x1_S800000_n_0_0_1_wf
  g1 := Cert.ReferenceIdeal.Gen.gather_S50000_S800000x1_S800000_n_0_n_n_0_1_1_wf
  gC := Cert.ReferenceIdeal.Gen.gather_S50000x128_S800000x1_S800000x128_1_0_n_n_0_1_1128_wf
  sC := Cert.ReferenceIdeal.Gen.scatter_S50000x128_S800000x1_S800000x128_1_0_0_1_wf

open scoped BigOperators

/-! ## A bias vector spread over the rows -/

/-- A length-n vector made a 1 × n row and then repeated down m rows reads, at (p, q), the vector's entry q. -/
theorem rowBias_apply {α : Type} {m n : Nat}
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (p : Fin m) (q : Fin n) :
    broadcastInDim ⟨2, ![m, n]⟩ ![0, 1] h2 (broadcastInDim ⟨2, ![1, n]⟩ ![1] h1 b) (ix2 p q) = b (ix1 q) := by
  have e2 : broadcastInDim ⟨2, ![m, n]⟩ ![0, 1] h2 (broadcastInDim ⟨2, ![1, n]⟩ ![1] h1 b) (ix2 p q)
      = broadcastInDim ⟨2, ![1, n]⟩ ![1] h1 b (ix2 (0 : Fin 1) q) := by
    refine broadcastInDim_apply ![0, 1] h2 _ (ix2 p q) (ix2 (0 : Fin 1) q) ?_
    intro a
    fin_cases a
    · show (0 : ℕ) = if (1 : ℕ) = 1 then 0 else _
      simp
    · show q.val = if n = 1 then 0 else q.val
      split_ifs with hn
      · have := q.isLt; omega
      · rfl
  have e1 : broadcastInDim ⟨2, ![1, n]⟩ ![1] h1 b (ix2 (0 : Fin 1) q) = b (ix1 q) := by
    refine broadcastInDim_apply ![1] h1 b (ix2 (0 : Fin 1) q) (ix1 q) ?_
    intro a
    fin_cases a
    show q.val = if n = 1 then 0 else q.val
    split_ifs with hn
    · have := q.isLt; omega
    · rfl
  exact e2.trans e1

/-! ## The dense stages as the reference writes them -/

/-- x · W + b as whole-array operations. -/
def xhRef (x : FVec Ideal S50000x128 .f32) (W : FVec Ideal S128x96 .f32) (b : FVec Ideal S96 .f32) : FVec Ideal S50000x96 .f32 :=
  addf (Host.dotGeneral dot_S50000x128_S128x96_S50000x96_1_0_0_1_n_n none x W)
    (broadcastInDim S50000x96 ![0, 1] bcast_S1x96_S50000x96_0_1 (broadcastInDim S1x96 ![1] bcast_S96_S1x96_1 b))

/-- xh · W as a whole-array product. -/
def dotHC (xh : FVec Ideal S50000x96 .f32) (W : FVec Ideal S96x128 .f32) : FVec Ideal S50000x128 .f32 :=
  Host.dotGeneral dot_S50000x96_S96x128_S50000x128_1_0_0_1_n_n none xh W

theorem plainCH : PlainDot.IsPlain dot_S50000x128_S128x96_S50000x96_1_0_0_1_n_n := ⟨rfl, rfl, rfl, rfl, rfl, rfl⟩
theorem plainHC : PlainDot.IsPlain dot_S50000x96_S96x128_S50000x128_1_0_0_1_n_n := ⟨rfl, rfl, rfl, rfl, rfl, rfl⟩

theorem dotHC_apply (xh : FVec Ideal S50000x96 .f32) (W : FVec Ideal S96x128 .f32) (p : Fin 50000) (q : Fin 128) :
    dotHC xh W (ix2 p q) = ∑ k : Fin 96, xh (ix2 p k) * W (ix2 k q) :=
  PlainDot.dotGeneral_apply plainHC none .single xh W p q

theorem xhRef_eq (x : FVec Ideal S50000x128 .f32) (W : FVec Ideal S128x96 .f32) (b : FVec Ideal S96 .f32) :
    xhRef x W b = Cert.Spec.xhOf x W b := by
  funext i
  obtain ⟨p, q, rfl⟩ : ∃ (p : Fin 50000) (q : Fin 96), i = ix2 p q := ⟨i 0, i 1, eq_ix2 i⟩
  show Host.dotGeneral dot_S50000x128_S128x96_S50000x96_1_0_0_1_n_n none x W (ix2 p q)
      + broadcastInDim S50000x96 ![0, 1] bcast_S1x96_S50000x96_0_1 (broadcastInDim S1x96 ![1] bcast_S96_S1x96_1 b) (ix2 p q)
    = (∑ k : Fin 128, x (ix2 p k) * W (ix2 k q)) + b (ix1 q)
  rw [rowBias_apply bcast_S96_S1x96_1 bcast_S1x96_S50000x96_0_1 b p q]
  exact congrArg (· + b (ix1 q)) (PlainDot.dotGeneral_apply plainCH none .single x W p q)

theorem dotHC_eq (xh : FVec Ideal S50000x96 .f32) (W : FVec Ideal S96x128 .f32) : dotHC xh W = Cert.Spec.xwOf xh W := by
  funext i
  obtain ⟨p, q, rfl⟩ : ∃ (p : Fin 50000) (q : Fin 128), i = ix2 p q := ⟨i 0, i 1, eq_ix2 i⟩
  exact dotHC_apply xh W p q

/-! ## The closing stage as the reference writes it -/

/-- max(v, 0) over a whole array: the maximum against the zero word spread over the array. -/
def reluV (v : FVec Ideal S50000x128 .f32) : FVec Ideal S50000x128 .f32 :=
  maximumf v (broadcastInDim S50000x128 ![] bcast_S_S50000x128 (constant S_ .f32 0x00000000#32))

/-- The leaky ReLU over a whole array: where v ≥ 0 keep v, elsewhere the slope word times v. -/
def leakyV (v : FVec Ideal S50000x128 .f32) : FVec Ideal S50000x128 .f32 :=
  select (cmpf .oge v (broadcastInDim S50000x128 ![] bcast_S_S50000x128 (constant S_ .f32 0x00000000#32))) v
    (mulf (broadcastInDim S50000x128 ![] bcast_S_S50000x128 (id (constant S_ .f32 0x3C23D70A#32))) v)

/-- A length-128 bias spread over the 50000 rows. -/
def rowB (b : FVec Ideal S128 .f32) : FVec Ideal S50000x128 .f32 :=
  broadcastInDim S50000x128 ![0, 1] bcast_S1x128_S50000x128_0_1 (broadcastInDim S1x128 ![1] bcast_S128_S1x128_1 b)

/-- The two branches joined, as whole-array operations. -/
def closeRef (mean xh : FVec Ideal S50000x96 .f32) (prop : FVec Ideal S50000x128 .f32) (Wl : FVec Ideal S96x128 .f32)
    (bl : FVec Ideal S128 .f32) (Wr V : FVec Ideal S96x128 .f32) (b : FVec Ideal S128 .f32) : FVec Ideal S50000x128 .f32 :=
  reluV (addf (leakyV (addf (addf (dotHC mean Wl) (rowB bl)) (dotHC xh Wr)))
    (leakyV (reluV (addf (addf prop (dotHC xh V)) (rowB b)))))

theorem reluV_apply (v : FVec Ideal S50000x128 .f32) (i : S50000x128.Idx) : reluV v i = Cert.Spec.relu (v i) := rfl

theorem leakyV_apply (v : FVec Ideal S50000x128 .f32) (i : S50000x128.Idx) : leakyV v i = Cert.Spec.leaky (v i) := rfl

theorem rowB_apply (b : FVec Ideal S128 .f32) (p : Fin 50000) (q : Fin 128) : rowB b (ix2 p q) = b (ix1 q) :=
  rowBias_apply bcast_S128_S1x128_1 bcast_S1x128_S50000x128_0_1 b p q

theorem closeRef_eq (mean xh : FVec Ideal S50000x96 .f32) (prop : FVec Ideal S50000x128 .f32) (Wl : FVec Ideal S96x128 .f32)
    (bl : FVec Ideal S128 .f32) (Wr V : FVec Ideal S96x128 .f32) (b : FVec Ideal S128 .f32) :
    closeRef mean xh prop Wl bl Wr V b = Cert.Spec.finOf mean xh prop Wl bl Wr V b := by
  funext i
  obtain ⟨p, q, rfl⟩ : ∃ (p : Fin 50000) (q : Fin 128), i = ix2 p q := ⟨i 0, i 1, eq_ix2 i⟩
  show Cert.Spec.relu
      (Cert.Spec.leaky ((dotHC mean Wl (ix2 p q) + rowB bl (ix2 p q)) + dotHC xh Wr (ix2 p q))
        + Cert.Spec.leaky (Cert.Spec.relu ((prop (ix2 p q) + dotHC xh V (ix2 p q)) + rowB b (ix2 p q))))
    = Cert.Spec.relu
      (Cert.Spec.leaky (((∑ k : Fin 96, mean (ix2 p k) * Wl (ix2 k q)) + bl (ix1 q)) + (∑ k : Fin 96, xh (ix2 p k) * Wr (ix2 k q)))
        + Cert.Spec.leaky (Cert.Spec.relu ((prop (ix2 p q) + (∑ k : Fin 96, xh (ix2 p k) * V (ix2 k q))) + b (ix1 q))))
  rw [dotHC_apply mean Wl p q, dotHC_apply xh Wr p q, dotHC_apply xh V p q, rowB_apply bl p q, rowB_apply b p q]

/-! ## The whole reference as one function of its arguments -/

/-- The reference's value: its dense stages as whole-array operations around the edge part. -/
def chain (x : FVec Ideal S50000x128 .f32) (ei : IVec S2x800000 32) (ew : FVec Ideal S800000 .f32) (preW : FVec Ideal S128x96 .f32)
    (preb : FVec Ideal S96 .f32) (Wl : FVec Ideal S96x128 .f32) (bl : FVec Ideal S128 .f32) (Wr aW aV : FVec Ideal S96x128 .f32)
    (ab : FVec Ideal S128 .f32) : FVec Ideal S50000x128 .f32 :=
  closeRef (Cert.Spec.meanOf hR (xhRef x preW preb) ei ew) (xhRef x preW preb)
    (Cert.Spec.propOf hR (dotHC (xhRef x preW preb) aW) ei ew) Wl bl Wr aV ab

theorem chain_eq (x : FVec Ideal S50000x128 .f32) (ei : IVec S2x800000 32) (ew : FVec Ideal S800000 .f32) (preW : FVec Ideal S128x96 .f32)
    (preb : FVec Ideal S96 .f32) (Wl : FVec Ideal S96x128 .f32) (bl : FVec Ideal S128 .f32) (Wr aW aV : FVec Ideal S96x128 .f32)
    (ab : FVec Ideal S128 .f32) :
    chain x ei ew preW preb Wl bl Wr aW aV ab = Cert.Spec.result hR x ei ew preW preb Wl bl Wr aW aV ab := by
  unfold chain Cert.Spec.result
  rw [xhRef_eq x preW preb, dotHC_eq (Cert.Spec.xhOf x preW preb) aW]
  exact closeRef_eq _ _ _ Wl bl Wr aV ab

/-! ## Cutting the operation list

The list is read in four stretches, so that each stretch's composed functions are compared with the specification's
over a valuation whose earlier results are already named. -/

/-- Running two lists one after the other is running their concatenation. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-- The first dense stage, the mean aggregation, the first branch's pre-activation, and the degree with its mask and
    its inverse square root. -/
abbrev seg1 : List (HloOp τ sig (Elt Ideal)) := ops.take 53
/-- The selection between the inverse square root and zero. -/
abbrev seg2 : List (HloOp τ sig (Elt Ideal)) := (ops.drop 53).take 4
/-- The edge normalisation, the propagation, and the second branch's pre-activation. -/
abbrev seg3 : List (HloOp τ sig (Elt Ideal)) := (ops.drop 57).take 42
/-- The closing activations. -/
abbrev seg4 : List (HloOp τ sig (Elt Ideal)) := ops.drop 99

theorem ops_stretches : (ops : List (HloOp τ sig (Elt Ideal))) = seg1 ++ (seg2 ++ (seg3 ++ seg4)) := rfl

theorem after_cut (V : Valuation τ sig (Elt Ideal)) :
    after ops V = after seg4 (after seg3 (after seg2 (after seg1 V))) :=
  calc after ops V
    _ = after (seg1 ++ (seg2 ++ (seg3 ++ seg4))) V := congrArg (fun l => after l V) ops_stretches
    _ = _ := by rw [after_append, after_append, after_append]

/-- A stretch as the literal list of its operations. -/
local macro "open_seg" : tactic =>
  `(tactic| simp only [seg1, seg2, seg3, seg4, ops, List.take_succ_cons, List.take_zero, List.drop_succ_cons, List.drop_zero])

/-! ## The first stretch, from any contents -/

section Seg1
variable (V : Valuation τ sig (Elt Ideal))

attribute [local irreducible] Host.gather Host.scatterAdd Host.divf Host.rsqrt

theorem s1_v1 : after seg1 V (Proc.devRef .tc main_v1) = Cert.Spec.srcOf hR (V (Proc.devRef .tc main_arg2)) := by
  open_seg; after_results_simp; rfl
theorem s1_v3 : after seg1 V (Proc.devRef .tc main_v3) = Cert.Spec.dstOf hR (V (Proc.devRef .tc main_arg2)) := by
  open_seg; after_results_simp; rfl
theorem s1_v7 : after seg1 V (Proc.devRef .tc main_v7) = xhRef (V (Proc.devRef .tc main_arg1)) (V (Proc.devRef .tc main_arg4)) (V (Proc.devRef .tc main_arg5)) := by
  open_seg; after_results_simp; rfl
set_option maxRecDepth 8192 in
theorem s1_v35 : after seg1 V (Proc.devRef .tc main_v35)
    = addf (addf (dotHC (Cert.Spec.meanOf hR (xhRef (V (Proc.devRef .tc main_arg1)) (V (Proc.devRef .tc main_arg4)) (V (Proc.devRef .tc main_arg5)))
          (V (Proc.devRef .tc main_arg2)) (V (Proc.devRef .tc main_arg3))) (V (Proc.devRef .tc main_arg6))) (rowB (V (Proc.devRef .tc main_arg7))))
        (dotHC (xhRef (V (Proc.devRef .tc main_arg1)) (V (Proc.devRef .tc main_arg4)) (V (Proc.devRef .tc main_arg5))) (V (Proc.devRef .tc main_arg8))) := by
  open_seg; after_results_simp; rfl
theorem s1_v40 : after seg1 V (Proc.devRef .tc main_v40)
    = cmpf .ogt (Cert.Spec.degOf hR (V (Proc.devRef .tc main_arg2)) (V (Proc.devRef .tc main_arg3)))
        (broadcastInDim S50000 ![] bcast_S_S50000 (constant (F := Ideal) S_ .f32 0x00000000#32)) := by
  open_seg; after_results_simp; rfl
theorem s1_v43 : after seg1 V (Proc.devRef .tc main_v43)
    = Host.rsqrt (maximumf (Cert.Spec.degOf hR (V (Proc.devRef .tc main_arg2)) (V (Proc.devRef .tc main_arg3)))
        (broadcastInDim S50000 ![] bcast_S_S50000 (constant (F := Ideal) S_ .f32 0x0DA24260#32))) := by
  open_seg; after_results_simp; rfl
theorem s1_arg3 : after seg1 V (Proc.devRef .tc main_arg3) = V (Proc.devRef .tc main_arg3) := by open_seg; after_results_simp
theorem s1_arg9 : after seg1 V (Proc.devRef .tc main_arg9) = V (Proc.devRef .tc main_arg9) := by open_seg; after_results_simp
theorem s1_arg10 : after seg1 V (Proc.devRef .tc main_arg10) = V (Proc.devRef .tc main_arg10) := by open_seg; after_results_simp
theorem s1_arg11 : after seg1 V (Proc.devRef .tc main_arg11) = V (Proc.devRef .tc main_arg11) := by open_seg; after_results_simp

end Seg1

/-! ## The selection, from any contents -/

section Seg2
variable (Y : Valuation τ sig (Elt Ideal))

/-- The first operand where the mask holds, the zero word at every node elsewhere. -/
theorem s2_v44 : after seg2 Y (Proc.devRef .tc main_v44)
    = select (Y (Proc.devRef .tc main_v40)) (Y (Proc.devRef .tc main_v43))
        (broadcastInDim S50000 ![] bcast_S_S50000 (id (constant (F := Ideal) S_ .f32 0x00000000#32))) := by
  open_seg; after_results_simp; rfl
theorem s2_v1 : after seg2 Y (Proc.devRef .tc main_v1) = Y (Proc.devRef .tc main_v1) := by open_seg; after_results_simp
theorem s2_v3 : after seg2 Y (Proc.devRef .tc main_v3) = Y (Proc.devRef .tc main_v3) := by open_seg; after_results_simp
theorem s2_v7 : after seg2 Y (Proc.devRef .tc main_v7) = Y (Proc.devRef .tc main_v7) := by open_seg; after_results_simp
theorem s2_v35 : after seg2 Y (Proc.devRef .tc main_v35) = Y (Proc.devRef .tc main_v35) := by open_seg; after_results_simp
theorem s2_arg3 : after seg2 Y (Proc.devRef .tc main_arg3) = Y (Proc.devRef .tc main_arg3) := by open_seg; after_results_simp
theorem s2_arg9 : after seg2 Y (Proc.devRef .tc main_arg9) = Y (Proc.devRef .tc main_arg9) := by open_seg; after_results_simp
theorem s2_arg10 : after seg2 Y (Proc.devRef .tc main_arg10) = Y (Proc.devRef .tc main_arg10) := by open_seg; after_results_simp
theorem s2_arg11 : after seg2 Y (Proc.devRef .tc main_arg11) = Y (Proc.devRef .tc main_arg11) := by open_seg; after_results_simp

end Seg2

/-! ## The propagation stretch, from any contents that hold the edge vectors and the inverse roots -/

section Seg3
variable (Z : Valuation τ sig (Elt Ideal))

attribute [local irreducible] Host.gather Host.scatterAdd Host.divf Host.rsqrt

set_option maxRecDepth 8192 in
/-- The second branch before its activation: the normalised propagation of xh · W, plus xh · V, plus the bias. -/
theorem s3_v79 (ei : IVec S2x800000 32) (ew : FVec Ideal S800000 .f32)
    (h1 : Z (Proc.devRef .tc main_v1) = Cert.Spec.srcOf hR ei) (h3 : Z (Proc.devRef .tc main_v3) = Cert.Spec.dstOf hR ei)
    (hd : Z (Proc.devRef .tc main_v44) = Cert.Spec.dinvOf hR ei ew) (hw : Z (Proc.devRef .tc main_arg3) = ew) :
    after seg3 Z (Proc.devRef .tc main_v79)
      = addf (addf (Cert.Spec.propOf hR (dotHC (Z (Proc.devRef .tc main_v7)) (Z (Proc.devRef .tc main_arg9))) ei ew)
          (dotHC (Z (Proc.devRef .tc main_v7)) (Z (Proc.devRef .tc main_arg10)))) (rowB (Z (Proc.devRef .tc main_arg11))) := by
  open_seg; after_results_simp
  rw [h1, h3, hd, hw]
  rfl
theorem s3_v35 : after seg3 Z (Proc.devRef .tc main_v35) = Z (Proc.devRef .tc main_v35) := by open_seg; after_results_simp

end Seg3

/-! ## The closing activations, from any contents -/

theorem s4_v84 (T : Valuation τ sig (Elt Ideal)) :
    after seg4 T (Proc.devRef .tc main_v84)
      = reluV (addf (leakyV (T (Proc.devRef .tc main_v35))) (leakyV (reluV (T (Proc.devRef .tc main_v79))))) := by
  open_seg; after_results_simp; rfl

/-! ## The result -/

/-- The result buffer after the operations, from any contents: the cell's value of the argument buffers. -/
theorem out_eq (V : Valuation τ sig (Elt Ideal)) :
    after ops V (main_v84 : DevRef τ sig)
      = Cert.Spec.result hR (V (main_arg1 : DevRef τ sig)) (V (main_arg2 : DevRef τ sig)) (V (main_arg3 : DevRef τ sig))
          (V (main_arg4 : DevRef τ sig)) (V (main_arg5 : DevRef τ sig)) (V (main_arg6 : DevRef τ sig))
          (V (main_arg7 : DevRef τ sig)) (V (main_arg8 : DevRef τ sig)) (V (main_arg9 : DevRef τ sig))
          (V (main_arg10 : DevRef τ sig)) (V (main_arg11 : DevRef τ sig)) := by
  have h1 : after seg2 (after seg1 V) (Proc.devRef .tc main_v1) = Cert.Spec.srcOf hR (V (Proc.devRef .tc main_arg2)) :=
    (s2_v1 _).trans (s1_v1 V)
  have h3 : after seg2 (after seg1 V) (Proc.devRef .tc main_v3) = Cert.Spec.dstOf hR (V (Proc.devRef .tc main_arg2)) :=
    (s2_v3 _).trans (s1_v3 V)
  have hw : after seg2 (after seg1 V) (Proc.devRef .tc main_arg3) = V (Proc.devRef .tc main_arg3) := (s2_arg3 _).trans (s1_arg3 V)
  have hd : after seg2 (after seg1 V) (Proc.devRef .tc main_v44) = Cert.Spec.dinvOf hR (V (Proc.devRef .tc main_arg2)) (V (Proc.devRef .tc main_arg3)) := by
    rw [s2_v44, s1_v40 V, s1_v43 V]; rfl
  have h7 : after seg2 (after seg1 V) (Proc.devRef .tc main_v7) = xhRef (V (Proc.devRef .tc main_arg1)) (V (Proc.devRef .tc main_arg4)) (V (Proc.devRef .tc main_arg5)) :=
    (s2_v7 _).trans (s1_v7 V)
  have h9 : after seg2 (after seg1 V) (Proc.devRef .tc main_arg9) = V (Proc.devRef .tc main_arg9) := (s2_arg9 _).trans (s1_arg9 V)
  have h10 : after seg2 (after seg1 V) (Proc.devRef .tc main_arg10) = V (Proc.devRef .tc main_arg10) := (s2_arg10 _).trans (s1_arg10 V)
  have h11 : after seg2 (after seg1 V) (Proc.devRef .tc main_arg11) = V (Proc.devRef .tc main_arg11) := (s2_arg11 _).trans (s1_arg11 V)
  have h35 : after seg3 (after seg2 (after seg1 V)) (Proc.devRef .tc main_v35) = _ := ((s3_v35 _).trans (s2_v35 _)).trans (s1_v35 V)
  have h79 := s3_v79 (after seg2 (after seg1 V)) (V (Proc.devRef .tc main_arg2)) (V (Proc.devRef .tc main_arg3)) h1 h3 hd hw
  rw [h7, h9, h10, h11] at h79
  show after ops V (Proc.devRef .tc main_v84) = _
  rw [after_cut, s4_v84, h35, h79]
  exact chain_eq _ _ _ _ _ _ _ _ _ _ _

end Cert.ReferenceIdeal.RefValue

end
-- ==== Proof.lean ====
/-
  The certificate of the graph cell: a kernel of two tiled dense stages around a gather / scatter-add edge part, against
  the same cell written with whole-array operations.

  Over the exact extended reals both programs compute ONE function of the arguments (`Cert.Spec.result`):
    xh = x · pre_W + pre_b;  mean, prop = the edge part of xh and of xw = xh · arma_W;
    out = relu(leaky(mean · Wl + bl + xh · Wr) + leaky(relu(prop + xh · V + b))).
  The kernel computes the dense stages 2000 rows at a time; a row of a matrix product depends only on the same row of
  the left factor, so the 25 row blocks of each result are the rows of the whole product, and they tile the array.  A
  change of float format is the identity over the reals, so rounding the factors to a narrower format first changes
  nothing.  The edge part is the same operations in both programs and is never opened.  No law that fails at the
  infinities is used (only that equal operations of equal operands are equal), so the finiteness precondition is not
  needed for the value; the first output is the second argument, unchanged.
-/
import proofs.«181693_j44916767981746_1_alg».proof.Defs
import proofs.«181693_j44916767981746_1_alg».proof.Proof.Gen.Kernel
import proofs.«181693_j44916767981746_1_alg».proof.Proof.Gen.Kernel.Frame
import proofs.«181693_j44916767981746_1_alg».proof.Proof.Gen.KernelIdeal
import proofs.«181693_j44916767981746_1_alg».proof.Proof.Gen.KernelIdeal.Frame
import proofs.«181693_j44916767981746_1_alg».proof.Proof.Gen.ReferenceIdeal
import proofs.«181693_j44916767981746_1_alg».proof.Proof.Gen.Pre_finite_inputs
import proofs.«181693_j44916767981746_1_alg».proof.Proof.KernelValue
import proofs.«181693_j44916767981746_1_alg».proof.Proof.RefRun
import proofs.«181693_j44916767981746_1_alg».proof.Proof.RefArgs
import proofs.«181693_j44916767981746_1_alg».proof.Proof.RefValue
import Idealize.ShloMosaic.Adequacy
import Idealize.ShloMosaic.Init

noncomputable section

namespace Cert.Proof

open Idealize.ShloMosaic Idealize.SL.Sem

/-- The printed kernel runs and leaves its arguments: the frame of its two regions and the host operations around them. -/
theorem frame_k : Cert.frame_Kernel := fun m ρ _ => Cert.Kernel.Gen.frame m ρ

/-- The same for the kernel read over the extended reals. -/
theorem frame_ki : Cert.frame_KernelIdeal := fun m ρ _ => Cert.KernelIdeal.Gen.frame m ρ

/-- The reference runs (a straight line of host operations) and writes no argument. -/
theorem frame_ri : Cert.frame_ReferenceIdeal := fun m ρ _ =>
  (θ_run Cert.ReferenceIdeal.defs _ _).mono (fun r h c => by
    obtain ⟨a0, a1, a2, a3, a4, a5, a6, a7, a8, a9, a10, a11⟩ := Cert.ReferenceIdeal.RefValue.arg_eq (StableHlo.launchContents m c)
    exact ⟨(h c Cert.ReferenceIdeal.main_arg0).trans a0,
      (h c Cert.ReferenceIdeal.main_arg1).trans a1,
      (h c Cert.ReferenceIdeal.main_arg2).trans a2,
      (h c Cert.ReferenceIdeal.main_arg3).trans a3,
      (h c Cert.ReferenceIdeal.main_arg4).trans a4,
      (h c Cert.ReferenceIdeal.main_arg5).trans a5,
      (h c Cert.ReferenceIdeal.main_arg6).trans a6,
      (h c Cert.ReferenceIdeal.main_arg7).trans a7,
      (h c Cert.ReferenceIdeal.main_arg8).trans a8,
      (h c Cert.ReferenceIdeal.main_arg9).trans a9,
      (h c Cert.ReferenceIdeal.main_arg10).trans a10,
      (h c Cert.ReferenceIdeal.main_arg11).trans a11⟩)
    (Cert.ReferenceIdeal.RefValue.run_main (F := Ideal) m ρ)

/-- The idealization rewrote nothing. -/
theorem preserves : Cert.preserves_Kernel_KernelIdeal := trivial

/-- From memories agreeing on the arguments both programs end with the second argument as first result and the cell's
    value as second: the kernel by its run with the result array named, the reference by its straight-line run, the
    two values one function of arguments that agree. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg1), fun c => Cert.Spec.result Cert.KernelIdeal.Val.hK (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨(h c).2.2.1, (h c).1, (h c).2⟩) (Cert.KernelIdeal.Val.run m ρ)
  · refine (θ_run Cert.ReferenceIdeal.defs _ _).mono (fun r h c => ?_) (Cert.ReferenceIdeal.RefValue.run_main (F := Ideal) m' ρ')
    obtain ⟨a0, a1, a2, a3, a4, a5, a6, a7, a8, a9, a10, a11⟩ := Cert.ReferenceIdeal.RefValue.arg_eq (StableHlo.launchContents m' c)
    obtain ⟨g0, g1, g2, g3, g4, g5, g6, g7, g8, g9, g10, g11⟩ := hagree c
    refine ⟨((h c Cert.ReferenceIdeal.main_arg1).trans a1).trans g1, ?_,
      (h c Cert.ReferenceIdeal.main_arg0).trans a0,
      (h c Cert.ReferenceIdeal.main_arg1).trans a1,
      (h c Cert.ReferenceIdeal.main_arg2).trans a2,
      (h c Cert.ReferenceIdeal.main_arg3).trans a3,
      (h c Cert.ReferenceIdeal.main_arg4).trans a4,
      (h c Cert.ReferenceIdeal.main_arg5).trans a5,
      (h c Cert.ReferenceIdeal.main_arg6).trans a6,
      (h c Cert.ReferenceIdeal.main_arg7).trans a7,
      (h c Cert.ReferenceIdeal.main_arg8).trans a8,
      (h c Cert.ReferenceIdeal.main_arg9).trans a9,
      (h c Cert.ReferenceIdeal.main_arg10).trans a10,
      (h c Cert.ReferenceIdeal.main_arg11).trans a11⟩
    refine ((h c Cert.ReferenceIdeal.main_v84).trans (Cert.ReferenceIdeal.RefValue.out_eq (StableHlo.launchContents m' c))).trans ?_
    show Cert.Spec.result Cert.ReferenceIdeal.RefValue.hR (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = _
    rw [g1, g2, g3, g4, g5, g6, g7, g8, g9, g10, g11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
